-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S16x128 : Shape := ⟨2, ![16, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : FVec F S4096x128 .f32) (main_arg1 : FVec F S16x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  main_v8
-- ==== Kernel.lean ====
abbrev S4096x128 : Shape := ⟨2, ![4096, 128]⟩
abbrev S16x128 : Shape := ⟨2, ![16, 128]⟩
abbrev S4096x2048 : Shape := ⟨2, ![4096, 2048]⟩
abbrev S512x128 : Shape := ⟨2, ![512, 128]⟩
abbrev S512x2048 : Shape := ⟨2, ![512, 2048]⟩
abbrev S1x128 : Shape := ⟨2, ![1, 128]⟩
abbrev S128 : Shape := ⟨1, ![128]⟩
abbrev S512 : Shape := ⟨1, ![512]⟩
abbrev S512x1 : Shape := ⟨2, ![512, 1]⟩
abbrev S4096x4096 : Shape := ⟨2, ![4096, 4096]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 11
  | .smem => 0
  | _ => 0

abbrev bufTy : (tb : Table) → Fin (tcTables nBuf tb) → BufTy
  | .hbm, ⟨0, _⟩ => ⟨S4096x128, .f32⟩
  | .hbm, ⟨1, _⟩ => ⟨S16x128, .f32⟩
  | .hbm, ⟨2, _⟩ => ⟨S4096x2048, .bf16⟩
  | .hbm, ⟨3, _⟩ => ⟨S4096x4096, .f32⟩
  | .local _ .vmem, ⟨0, _⟩ => ⟨S512x128, .f32⟩
  | .local _ .vmem, ⟨1, _⟩ => ⟨S512x128, .f32⟩
  | .local _ .vmem, ⟨2, _⟩ => ⟨S16x128, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x1024, .f32⟩
  | .local _ .vmem, ⟨10, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S512x128_S512x128_0_0 : ∀ a, (![0, 0] : Fin 2 → Nat) a + S512x128.size a ≤ S512x128.size a
  h_S512x128 : 0 < S512x128.numel
  inb_S16x128_S1x128_0_0 : ∀ a, (![0, 0] : Fin 2 → Nat) a + S1x128.size a ≤ S16x128.size a
  h_S1x128 : 0 < S1x128.numel
  shapeCasts_S1x128_S128 : S1x128.ShapeCasts S128
  shapeCasts_S128_S1x128 : S128.ShapeCasts S1x128
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  inb_S512x2048_S512x128_0_0 : ∀ a, (![0, 0] : Fin 2 → Nat) a + S512x128.size a ≤ S512x2048.size a
  packedbf16_S512x2048_S512x128_0_0 : (Rect.unit (s := S512x2048) ![0, 0] S512x128.size inb_S512x2048_S512x128_0_0).PackedRows (EltTy.packing .bf16)
  inb_S16x128_S1x128_1_0 : ∀ a, (![1, 0] : Fin 2 → Nat) a + S1x128.size a ≤ S16x128.size a
  inb_S512x2048_S512x128_0_128 : ∀ a, (![0, 128] : Fin 2 → Nat) a + S512x128.size a ≤ S512x2048.size a
  packedbf16_S512x2048_S512x128_0_128 : (Rect.unit (s := S512x2048) ![0, 128] S512x128.size inb_S512x2048_S512x128_0_128).PackedRows (EltTy.packing .bf16)
  inb_S16x128_S1x128_2_0 : ∀ a, (![2, 0] : Fin 2 → Nat) a + S1x128.size a ≤ S16x128.size a
  inb_S512x2048_S512x128_0_256 : ∀ a, (![0, 256] : Fin 2 → Nat) a + S512x128.size a ≤ S512x2048.size a
  packedbf16_S512x2048_S512x128_0_256 : (Rect.unit (s := S512x2048) ![0, 256] S512x128.size inb_S512x2048_S512x128_0_256).PackedRows (EltTy.packing .bf16)
  inb_S16x128_S1x128_3_0 : ∀ a, (![3, 0] : Fin 2 → Nat) a + S1x128.size a ≤ S16x128.size a
  inb_S512x2048_S512x128_0_384 : ∀ a, (![0, 384] : Fin 2 → Nat) a + S512x128.size a ≤ S512x2048.size a
  packedbf16_S512x2048_S512x128_0_384 : (Rect.unit (s := S512x2048) ![0, 384] S512x128.size inb_S512x2048_S512x128_0_384).PackedRows (EltTy.packing .bf16)
  inb_S16x128_S1x128_4_0 : ∀ a, (![4, 0] : Fin 2 → Nat) a + S1x128.size a ≤ S16x128.size a
  inb_S512x2048_S512x128_0_512 : ∀ a, (![0, 512] : Fin 2 → Nat) a + S512x128.size a ≤ S512x2048.size a
  packedbf16_S512x2048_S512x128_0_512 : (Rect.unit (s := S512x2048) ![0, 512] S512x128.size inb_S512x2048_S512x128_0_512).PackedRows (EltTy.packing .bf16)
  inb_S16x128_S1x128_5_0 : ∀ a, (![5, 0] : Fin 2 → Nat) a + S1x128.size a ≤ S16x128.size a
  inb_S512x2048_S512x128_0_640 : ∀ a, (![0, 640] : Fin 2 → Nat) a + S512x128.size a ≤ S512x2048.size a
  packedbf16_S512x2048_S512x128_0_640 : (Rect.unit (s := S512x2048) ![0, 640] S512x128.size inb_S512x2048_S512x128_0_640).PackedRows (EltTy.packing .bf16)
  inb_S16x128_S1x128_6_0 : ∀ a, (![6, 0] : Fin 2 → Nat) a + S1x128.size a ≤ S16x128.size a
  inb_S512x2048_S512x128_0_768 : ∀ a, (![0, 768] : Fin 2 → Nat) a + S512x128.size a ≤ S512x2048.size a
  packedbf16_S512x2048_S512x128_0_768 : (Rect.unit (s := S512x2048) ![0, 768] S512x128.size inb_S512x2048_S512x128_0_768).PackedRows (EltTy.packing .bf16)
  inb_S16x128_S1x128_7_0 : ∀ a, (![7, 0] : Fin 2 → Nat) a + S1x128.size a ≤ S16x128.size a
  inb_S512x2048_S512x128_0_896 : ∀ a, (![0, 896] : Fin 2 → Nat) a + S512x128.size a ≤ S512x2048.size a
  packedbf16_S512x2048_S512x128_0_896 : (Rect.unit (s := S512x2048) ![0, 896] S512x128.size inb_S512x2048_S512x128_0_896).PackedRows (EltTy.packing .bf16)
  inb_S16x128_S1x128_8_0 : ∀ a, (![8, 0] : Fin 2 → Nat) a + S1x128.size a ≤ S16x128.size a
  inb_S512x2048_S512x128_0_1024 : ∀ a, (![0, 1024] : Fin 2 → Nat) a + S512x128.size a ≤ S512x2048.size a
  packedbf16_S512x2048_S512x128_0_1024 : (Rect.unit (s := S512x2048) ![0, 1024] S512x128.size inb_S512x2048_S512x128_0_1024).PackedRows (EltTy.packing .bf16)
  inb_S16x128_S1x128_9_0 : ∀ a, (![9, 0] : Fin 2 → Nat) a + S1x128.size a ≤ S16x128.size a
  inb_S512x2048_S512x128_0_1152 : ∀ a, (![0, 1152] : Fin 2 → Nat) a + S512x128.size a ≤ S512x2048.size a
  packedbf16_S512x2048_S512x128_0_1152 : (Rect.unit (s := S512x2048) ![0, 1152] S512x128.size inb_S512x2048_S512x128_0_1152).PackedRows (EltTy.packing .bf16)
  inb_S16x128_S1x128_10_0 : ∀ a, (![10, 0] : Fin 2 → Nat) a + S1x128.size a ≤ S16x128.size a
  inb_S512x2048_S512x128_0_1280 : ∀ a, (![0, 1280] : Fin 2 → Nat) a + S512x128.size a ≤ S512x2048.size a
  packedbf16_S512x2048_S512x128_0_1280 : (Rect.unit (s := S512x2048) ![0, 1280] S512x128.size inb_S512x2048_S512x128_0_1280).PackedRows (EltTy.packing .bf16)
  inb_S16x128_S1x128_11_0 : ∀ a, (![11, 0] : Fin 2 → Nat) a + S1x128.size a ≤ S16x128.size a
  inb_S512x2048_S512x128_0_1408 : ∀ a, (![0, 1408] : Fin 2 → Nat) a + S512x128.size a ≤ S512x2048.size a
  packedbf16_S512x2048_S512x128_0_1408 : (Rect.unit (s := S512x2048) ![0, 1408] S512x128.size inb_S512x2048_S512x128_0_1408).PackedRows (EltTy.packing .bf16)
  inb_S16x128_S1x128_12_0 : ∀ a, (![12, 0] : Fin 2 → Nat) a + S1x128.size a ≤ S16x128.size a
  inb_S512x2048_S512x128_0_1536 : ∀ a, (![0, 1536] : Fin 2 → Nat) a + S512x128.size a ≤ S512x2048.size a
  packedbf16_S512x2048_S512x128_0_1536 : (Rect.unit (s := S512x2048) ![0, 1536] S512x128.size inb_S512x2048_S512x128_0_1536).PackedRows (EltTy.packing .bf16)
  inb_S16x128_S1x128_13_0 : ∀ a, (![13, 0] : Fin 2 → Nat) a + S1x128.size a ≤ S16x128.size a
  inb_S512x2048_S512x128_0_1664 : ∀ a, (![0, 1664] : Fin 2 → Nat) a + S512x128.size a ≤ S512x2048.size a
  packedbf16_S512x2048_S512x128_0_1664 : (Rect.unit (s := S512x2048) ![0, 1664] S512x128.size inb_S512x2048_S512x128_0_1664).PackedRows (EltTy.packing .bf16)
  inb_S16x128_S1x128_14_0 : ∀ a, (![14, 0] : Fin 2 → Nat) a + S1x128.size a ≤ S16x128.size a
  inb_S512x2048_S512x128_0_1792 : ∀ a, (![0, 1792] : Fin 2 → Nat) a + S512x128.size a ≤ S512x2048.size a
  packedbf16_S512x2048_S512x128_0_1792 : (Rect.unit (s := S512x2048) ![0, 1792] S512x128.size inb_S512x2048_S512x128_0_1792).PackedRows (EltTy.packing .bf16)
  inb_S16x128_S1x128_15_0 : ∀ a, (![15, 0] : Fin 2 → Nat) a + S1x128.size a ≤ S16x128.size a
  inb_S512x2048_S512x128_0_1920 : ∀ a, (![0, 1920] : Fin 2 → Nat) a + S512x128.size a ≤ S512x2048.size a
  packedbf16_S512x2048_S512x128_0_1920 : (Rect.unit (s := S512x2048) ![0, 1920] S512x128.size inb_S512x2048_S512x128_0_1920).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  natLt_1_32 : 1 < 32
  inb_S1024x1024_S1024x1024_0_0 : ∀ a, (![0, 0] : Fin 2 → Nat) a + S1024x1024.size a ≤ S1024x1024.size a
  h_S1024x1024 : 0 < S1024x1024.numel
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .bf16 = 32 ∨ (Rect.block (s := S4096x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .bf16 = 32 ∨ (Rect.block (s := S4096x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x2048.size a
  hwx1_1 : ∀ i : grid1.Coords, EltTy.bits .bf16 = 32 ∨ (Rect.block (s := S4096x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x128 : Shape := ⟨2, ![4096, 128]⟩
abbrev S16x128 : Shape := ⟨2, ![16, 128]⟩
abbrev S1x4096x128 : Shape := ⟨3, ![1, 4096, 128]⟩
abbrev S16x1x128 : Shape := ⟨3, ![16, 1, 128]⟩
abbrev S16x4096x128 : Shape := ⟨3, ![16, 4096, 128]⟩
abbrev S_ : Shape := ⟨0, ![]⟩
abbrev S16x4096 : Shape := ⟨2, ![16, 4096]⟩
abbrev S16x4096x1 : Shape := ⟨3, ![16, 4096, 1]⟩
abbrev S16x4096x4096 : Shape := ⟨3, ![16, 4096, 4096]⟩
abbrev S4096x4096 : Shape := ⟨2, ![4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S16x128, .f32⟩
  | .hbm, ⟨2, _⟩ => ⟨S1x4096x128, .f32⟩
  | .hbm, ⟨3, _⟩ => ⟨S16x1x128, .f32⟩
  | .hbm, ⟨4, _⟩ => ⟨S16x4096x128, .f32⟩
  | .hbm, ⟨5, _⟩ => ⟨S16x4096x128, .f32⟩
  | .hbm, ⟨6, _⟩ => ⟨S16x4096x128, .f32⟩
  | .hbm, ⟨7, _⟩ => ⟨S16x4096x128, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x128, .f32⟩
  | .hbm, ⟨16, _⟩ => ⟨S16x4096x128, .f32⟩
  | .hbm, ⟨17, _⟩ => ⟨S16x4096x4096, .f32⟩
  | .hbm, ⟨18, _⟩ => ⟨S_, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .i1⟩
  | .hbm, ⟨26, _⟩ => ⟨S4096x4096, .f32⟩
  | .hbm, ⟨27, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S4096x128_S1x4096x128_1_2 : S4096x128.BroadcastsInDim S1x4096x128 (![1, 2] : Fin 2 → Fin S1x4096x128.rank)
  bcast_S16x128_S16x1x128_0_2 : S16x128.BroadcastsInDim S16x1x128 (![0, 2] : Fin 2 → Fin S16x1x128.rank)
  bcast_S1x4096x128_S16x4096x128_0_1_2 : S1x4096x128.BroadcastsInDim S16x4096x128 (![0, 1, 2] : Fin 3 → Fin S16x4096x128.rank)
  bcast_S16x1x128_S16x4096x128_0_1_2 : S16x1x128.BroadcastsInDim S16x4096x128 (![0, 1, 2] : Fin 3 → Fin S16x4096x128.rank)
  reducesTo_S16x4096x128_S16x4096_d2 : S16x4096x128.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x128_0_1_2 : S16x4096x1.BroadcastsInDim S16x4096x128 (![0, 1, 2] : Fin 3 → Fin S16x4096x128.rank)
  reducesTo_S16x4096x4096_S4096x4096_d0 : S16x4096x4096.ReducesTo [0] S4096x4096
  bcast_S_S4096x4096 : S_.BroadcastsInDim S4096x4096 (![] : Fin 0 → Fin S4096x4096.rank)
  dot_S16x4096x128_S16x4096x128_S16x4096x4096_2_2_1_1_0_0_wf : DotDims.WF S16x4096x128 S16x4096x128 S16x4096x4096 [2] [2] [1] [1] [0] [0]

variable [Facts₀]

def dot_S16x4096x128_S16x4096x128_S16x4096x4096_2_2_1_1_0_0 : DotDims S16x4096x128 S16x4096x128 S16x4096x4096 where
  lhsContracting := [2]
  rhsContracting := [2]
  lhsNonContracting := [1]
  rhsNonContracting := [1]
  lhsBatch := [0]
  rhsBatch := [0]
  wf := dot_S16x4096x128_S16x4096x128_S16x4096x4096_2_2_1_1_0_0_wf

class Facts : Prop extends Facts₀ where

variable [Facts]
-- ==== Proof.K.Reg0.lean ====
/-
  The first launch (normalising and concatenating): on grid point i the body reads rows 512·i … 512·i+511 of the
  context and the whole weight table and, for each of the sixteen perspectives p, stores into columns 128·p … 128·p+127
  of its output block the context rows scaled by weight row p and divided by their norm (floored). This module says what
  the body leaves in its output block as a function of the two input blocks (sixteen pieces that tile the block), proves
  the body's triple, and states the launch's proof data over the contents `V` the launch is entered from.
-/
import proofs.«140578_j14869176779021_1_alg».proof.Proof.Gen.Kernel.Launch
import proofs.«140578_j14869176779021_1_alg».proof.Proof.Gen.Kernel.Skeleton
import proofs.«140578_j14869176779021_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole context block; weight row p; columns 128·p … 128·p+127 of the output block. -/
abbrev rCtx : Rect S512x128 := Rect.unit (s := S512x128) ![0, 0] S512x128.size inb_S512x128_S512x128_0_0
abbrev rW0 : Rect S16x128 := Rect.unit (s := S16x128) ![0, 0] S1x128.size inb_S16x128_S1x128_0_0
abbrev rO0 : Rect S512x2048 := Rect.unit (s := S512x2048) ![0, 0] S512x128.size inb_S512x2048_S512x128_0_0
abbrev rW1 : Rect S16x128 := Rect.unit (s := S16x128) ![1, 0] S1x128.size inb_S16x128_S1x128_1_0
abbrev rO1 : Rect S512x2048 := Rect.unit (s := S512x2048) ![0, 128] S512x128.size inb_S512x2048_S512x128_0_128
abbrev rW2 : Rect S16x128 := Rect.unit (s := S16x128) ![2, 0] S1x128.size inb_S16x128_S1x128_2_0
abbrev rO2 : Rect S512x2048 := Rect.unit (s := S512x2048) ![0, 256] S512x128.size inb_S512x2048_S512x128_0_256
abbrev rW3 : Rect S16x128 := Rect.unit (s := S16x128) ![3, 0] S1x128.size inb_S16x128_S1x128_3_0
abbrev rO3 : Rect S512x2048 := Rect.unit (s := S512x2048) ![0, 384] S512x128.size inb_S512x2048_S512x128_0_384
abbrev rW4 : Rect S16x128 := Rect.unit (s := S16x128) ![4, 0] S1x128.size inb_S16x128_S1x128_4_0
abbrev rO4 : Rect S512x2048 := Rect.unit (s := S512x2048) ![0, 512] S512x128.size inb_S512x2048_S512x128_0_512
abbrev rW5 : Rect S16x128 := Rect.unit (s := S16x128) ![5, 0] S1x128.size inb_S16x128_S1x128_5_0
abbrev rO5 : Rect S512x2048 := Rect.unit (s := S512x2048) ![0, 640] S512x128.size inb_S512x2048_S512x128_0_640
abbrev rW6 : Rect S16x128 := Rect.unit (s := S16x128) ![6, 0] S1x128.size inb_S16x128_S1x128_6_0
abbrev rO6 : Rect S512x2048 := Rect.unit (s := S512x2048) ![0, 768] S512x128.size inb_S512x2048_S512x128_0_768
abbrev rW7 : Rect S16x128 := Rect.unit (s := S16x128) ![7, 0] S1x128.size inb_S16x128_S1x128_7_0
abbrev rO7 : Rect S512x2048 := Rect.unit (s := S512x2048) ![0, 896] S512x128.size inb_S512x2048_S512x128_0_896
abbrev rW8 : Rect S16x128 := Rect.unit (s := S16x128) ![8, 0] S1x128.size inb_S16x128_S1x128_8_0
abbrev rO8 : Rect S512x2048 := Rect.unit (s := S512x2048) ![0, 1024] S512x128.size inb_S512x2048_S512x128_0_1024
abbrev rW9 : Rect S16x128 := Rect.unit (s := S16x128) ![9, 0] S1x128.size inb_S16x128_S1x128_9_0
abbrev rO9 : Rect S512x2048 := Rect.unit (s := S512x2048) ![0, 1152] S512x128.size inb_S512x2048_S512x128_0_1152
abbrev rW10 : Rect S16x128 := Rect.unit (s := S16x128) ![10, 0] S1x128.size inb_S16x128_S1x128_10_0
abbrev rO10 : Rect S512x2048 := Rect.unit (s := S512x2048) ![0, 1280] S512x128.size inb_S512x2048_S512x128_0_1280
abbrev rW11 : Rect S16x128 := Rect.unit (s := S16x128) ![11, 0] S1x128.size inb_S16x128_S1x128_11_0
abbrev rO11 : Rect S512x2048 := Rect.unit (s := S512x2048) ![0, 1408] S512x128.size inb_S512x2048_S512x128_0_1408
abbrev rW12 : Rect S16x128 := Rect.unit (s := S16x128) ![12, 0] S1x128.size inb_S16x128_S1x128_12_0
abbrev rO12 : Rect S512x2048 := Rect.unit (s := S512x2048) ![0, 1536] S512x128.size inb_S512x2048_S512x128_0_1536
abbrev rW13 : Rect S16x128 := Rect.unit (s := S16x128) ![13, 0] S1x128.size inb_S16x128_S1x128_13_0
abbrev rO13 : Rect S512x2048 := Rect.unit (s := S512x2048) ![0, 1664] S512x128.size inb_S512x2048_S512x128_0_1664
abbrev rW14 : Rect S16x128 := Rect.unit (s := S16x128) ![14, 0] S1x128.size inb_S16x128_S1x128_14_0
abbrev rO14 : Rect S512x2048 := Rect.unit (s := S512x2048) ![0, 1792] S512x128.size inb_S512x2048_S512x128_0_1792
abbrev rW15 : Rect S16x128 := Rect.unit (s := S16x128) ![15, 0] S1x128.size inb_S16x128_S1x128_15_0
abbrev rO15 : Rect S512x2048 := Rect.unit (s := S512x2048) ![0, 1920] S512x128.size inb_S512x2048_S512x128_0_1920

/-- What the body leaves in the output block: its sixteen stores as pieces, the last store first. Perspective p's piece is
    the context block scaled by weight row p, each row divided by the larger of its norm and the floor. -/
def out0_2 (x0 : Vec F S512x128 .f32) (x1 : Vec F S16x128 .f32) : Vec F S512x2048 .bf16 :=
  View.canon [
    ⟨rO15, k0_pay23 (View.ld x0 rCtx) (View.ld x1 rW15)⟩,
    ⟨rO14, k0_pay22 (View.ld x0 rCtx) (View.ld x1 rW14)⟩,
    ⟨rO13, k0_pay21 (k0_pay19 (View.ld x0 rCtx) (View.ld x1 rW13)) (k0_pay20 (View.ld x0 rCtx) (View.ld x1 rW13))⟩,
    ⟨rO12, k0_pay18 (View.ld x0 rCtx) (View.ld x1 rW12)⟩,
    ⟨rO11, k0_pay17 (View.ld x0 rCtx) (View.ld x1 rW11)⟩,
    ⟨rO10, k0_pay16 (k0_pay14 (View.ld x0 rCtx) (View.ld x1 rW10)) (k0_pay15 (View.ld x0 rCtx) (View.ld x1 rW10))⟩,
    ⟨rO9, k0_pay13 (View.ld x0 rCtx) (View.ld x1 rW9)⟩,
    ⟨rO8, k0_pay12 (View.ld x0 rCtx) (View.ld x1 rW8)⟩,
    ⟨rO7, k0_pay11 (View.ld x0 rCtx) (View.ld x1 rW7)⟩,
    ⟨rO6, k0_pay10 (View.ld x0 rCtx) (View.ld x1 rW6)⟩,
    ⟨rO5, k0_pay9 (View.ld x0 rCtx) (k0_pay8 (View.ld x1 rW5))⟩,
    ⟨rO4, k0_pay7 (View.ld x0 rCtx) (View.ld x1 rW4)⟩,
    ⟨rO3, k0_pay6 (View.ld x0 rCtx) (View.ld x1 rW3)⟩,
    ⟨rO2, k0_pay5 (k0_pay3 (View.ld x0 rCtx) (View.ld x1 rW2)) (k0_pay4 (View.ld x0 rCtx) (View.ld x1 rW2))⟩,
    ⟨rO1, k0_pay2 (View.ld x0 rCtx) (View.ld x1 rW1)⟩,
    ⟨rO0, k0_pay1 (View.ld x0 rCtx) (View.ld x1 rW0)⟩]

/-- The sixteen column bands tile the block, so they cover it. -/
theorem cover0_2 (p0 p1 p2 p3 p4 p5 p6 p7 p8 p9 p10 p11 p12 p13 p14 p15 : Vec F S512x128 .bf16) (y : S512x2048.Idx) :
    ∃ pc ∈ ([⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S512x2048 .bf16)), y ∈ pc.1.set :=
  View.cover_of_tiledL [⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] S512x128.size (by rfl) y

set_option maxHeartbeats 4000000 in
/-- The body on whole staging buffers: the inputs are read and kept, the output ends at `out0_2` of the inputs. -/
theorem sound_kernel0 (c : Dev nD) (E : Set ℕ) (i : grid0.Coords) (arg1 : Memref sig .tc .vmem S512x128 .f32) (harg1 : arg1.IsWhole)
    (arg2 : Memref sig .tc .vmem S16x128 .f32) (harg2 : arg2.IsWhole) (arg3 : Memref sig .tc .vmem S512x2048 .bf16) (harg3 : arg3.IsWhole)
    (x0 : Vec F S512x128 .f32) (x1 : Vec F S16x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__preprocess_kernel i arg1 harg1 arg2 harg2 arg3 harg3) K := by
  simp only [cc0__preprocess_kernel_eq_skeleton]; unfold cc0__preprocess_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _ _ _ _ _ _ _ _ _ _)

/-- The launch's proof data on core `c`: the arrays as the launch finds them; after the body each input's buffer still
    at its block and the output's at `out0_2` of the two input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1.lean ====
/-
  The second launch (the similarity matrix): on each grid point (i, j) the body reads block i and block j of the
  normalised, concatenated rows — both windows stage blocks of ONE array — and stores into its output block the
  masked, scaled products of the two blocks' rows. This module says what the body leaves in its output block as a
  function of the two input blocks, proves the body's triple, and states the launch's proof data over the contents
  `V` the launch is entered from. The two input windows hold the shared array at complementary half shares.
-/
import proofs.«140578_j14869176779021_1_alg».proof.Proof.Gen.Kernel.Launch
import proofs.«140578_j14869176779021_1_alg».proof.Proof.Gen.Kernel.Skeleton
import proofs.«140578_j14869176779021_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole of an input block, and the whole of the output block. -/
abbrev rIn1 : Rect S1024x2048 := Rect.unit (s := S1024x2048) ![0, 0] S1024x2048.size inb_S1024x2048_S1024x2048_0_0
abbrev rOut1 : Rect S1024x1024 := Rect.unit (s := S1024x1024) ![0, 0] S1024x1024.size inb_S1024x1024_S1024x1024_0_0

/-- What the body leaves in the output block: its one store, of the masked scaled products of the two input blocks. -/
def out1_2 (x0 x1 : Vec F S1024x2048 .bf16) : Vec F S1024x1024 .f32 :=
  View.canon [⟨rOut1, k1_pay1 (View.ld x0 rIn1) (View.ld x1 rIn1)⟩]

theorem cover1_2 (p0 : Vec F S1024x1024 .f32) (y : S1024x1024.Idx) :
    ∃ pc ∈ ([⟨rOut1, p0⟩] : List (View.Piece (Elt F) S1024x1024 .f32)), y ∈ pc.1.set :=
  View.cover_of_tiled [⟨rOut1, p0⟩] S1024x1024.size (by rfl) y

set_option maxHeartbeats 1000000 in
/-- The body on whole staging buffers: the inputs are read and kept, the output ends at `out1_2` of the inputs. -/
theorem sound_kernel1 (c : Dev nD) (E : Set ℕ) (i : grid1.Coords) (arg2 : Memref sig .tc .vmem S1024x2048 .bf16) (harg2 : arg2.IsWhole)
    (arg3 : Memref sig .tc .vmem S1024x2048 .bf16) (harg3 : arg3.IsWhole) (arg4 : Memref sig .tc .vmem S1024x1024 .f32) (harg4 : arg4.IsWhole)
    (x0 x1 : Vec F S1024x2048 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__matmul_kernel i arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The launch's proof data on core `c`: the arrays as the launch finds them; after the body each input's buffer still
    at its block and the output's at `out1_2` of the two input blocks; the two input windows read ONE array and hold it at
    the two halves of the full share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The whole program as a run: @main is the first launch followed by the second, with nothing in between. The buffers'
  contents are followed from the launch memory `m`: the first launch changes only its output array (to what its eight
  write-backs leave), the second reads that array through BOTH of its input windows — the array's full share is split in
  two halves on entry and joined again on exit — and changes only the result array. Every weakly fair execution ends with
  each buffer at these contents; the frame (the arguments unchanged) and the result's value are read off that.
-/
import proofs.«140578_j14869176779021_1_alg».proof.Proof.K.Reg0
import proofs.«140578_j14869176779021_1_alg».proof.Proof.K.Reg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => m (c, b)
/-- The same read at the TensorCore's references: what the first launch is entered from. -/
abbrev E0 : (c : Dev nD) → (b : Ref sig .tc) → Buf (Elt F) ((c : Thread nD τ).loc b) := fun c b => W0 m c b
/-- After the first launch: its output array at what the write-backs leave, every other buffer as before. -/
def W2 (c : Dev nD) : Valuation τ sig (Elt F) :=
  Pipeline.withArrays spec0 c (W0 m c) fun w => (dat0 (E0 m) c).arrAt w cfg0.N
theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same at the TensorCore's references: what the second launch is entered from. -/
abbrev E1 : (c : Dev nD) → (b : Ref sig .tc) → Buf (Elt F) ((c : Thread nD τ).loc b) := fun c b => W2 m c b
theorem hF0 (c : Dev nD) (w : Fin cfg0.W) : (dat0 (E0 m) c).arrAt w cfg0.N = E1 m c (Pipeline.arrRef spec0 w) :=
  (W2_arr m c w).symm
theorem hrest0 (c : Dev nD) : ∀ b, b ∉ Finset.univ.image (Pipeline.arrRef spec0) → E1 m c b = E0 m c b :=
  fun b hb => W2_of_ne m c b fun w e => hb (Finset.mem_image.mpr ⟨w, Finset.mem_univ _, e⟩)

/-- After the second launch: the result array at what its write-backs leave, every other buffer as before. -/
def W4 (c : Dev nD) : Valuation τ sig (Elt F) :=
  Function.update (W2 m c) (Proc.devRef .tc main_v1) ((dat1 (E1 m) c).arrAt 2 cfg1.N)
abbrev E2 : (c : Dev nD) → (b : Ref sig .tc) → Buf (Elt F) ((c : Thread nD τ).loc b) := fun c b => W4 m c b
theorem W4_v1 (c : Dev nD) : W4 m c (Proc.devRef .tc main_v1) = (dat1 (E1 m) c).arrAt 2 cfg1.N := by
  unfold W4; exact Function.update_self _ _ _
theorem W4_of_ne (c : Dev nD) (b : Ref sig .tc) (hb : b ≠ main_v1) :
    W4 m c (Proc.devRef .tc b) = W2 m c (Proc.devRef .tc b) := by
  unfold W4; exact Function.update_of_ne (StableHlo.devRef_ne_of_ne hb) _ _

/-- The arguments are never written. -/
theorem W4_main_arg0 (c : Dev nD) : W4 m c (Proc.devRef .tc main_arg0) = m ((c : Thread nD τ).loc main_arg0) :=
  (W4_of_ne m c main_arg0 (by decide)).trans
    ((W2_arr m c 0).trans (((dat0 (E0 m) c).arrAt_in 0 rfl _).trans (A_eq0 (E0 m) c 0)))
theorem W4_main_arg1 (c : Dev nD) : W4 m c (Proc.devRef .tc main_arg1) = m ((c : Thread nD τ).loc main_arg1) :=
  (W4_of_ne m c main_arg1 (by decide)).trans
    ((W2_arr m c 1).trans (((dat0 (E0 m) c).arrAt_in 1 rfl _).trans (A_eq0 (E0 m) c 1)))

/-! ## The proof data family and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- The core's generator register at some state and its dues, none. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The second launch's arrays: one buffer behind two windows -/

/-- The two distinct buffers behind the second launch's three windows, each whole at the full share. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)) := by
  unfold Pipeline.arrBufs; exact bigSep_eq_bigSepL_of_eq [main_v0, main_v1] (by decide) (by decide) _

/-- On entry: the shared array's share is split in two halves, one per input window. -/
theorem arrays1_entry (c : Dev nD) :
    (Pipeline.arrBufs (Ix := Unit) (Name := ℕ) (U := UR sig nD τ) (Lvl := ℕ) spec1 c (E1 m c) : sProp 𝕄)
      ⊢ (pdats m 1 c).arrays ((pdats m 1 c).arrAt · 0) := by
  have hs : ∀ w : Fin 3, ((Pipeline.pin (pcfgs (F := F)) adm 1).win w).arr.view.set = Finset.univ := fun w => (arr_whole1 w).set_eq_univ
  rw [arrBufs1_eq]
  unfold Pipeline.Dat.arrays
  rw [bigSep_W1, hs 0, hs 1, hs 2]
  iintro ⟨H0, H1⟩
  ihave H0' := (pointsTo_share (PosShare.mem_left_op_right fullShare)).1 $$ H0
  icases H0' with ⟨Ha, Hb⟩
  isplitl [Ha]; · iexact Ha
  isplitl [Hb]; · iexact Hb
  iexact H1

/-- On exit: the halves are joined and the result array is at what the write-backs left. -/
theorem arrays1_exit (c : Dev nD) :
    ((pdats m 1 c).arrays ((pdats m 1 c).arrAt · cfg1.N) : sProp 𝕄)
      ⊢ Pipeline.arrBufs (Ix := Unit) (Name := ℕ) (U := UR sig nD τ) (Lvl := ℕ) spec1 c (E2 m c) := by
  have hs : ∀ w : Fin 3, ((Pipeline.pin (pcfgs (F := F)) adm 1).win w).arr.view.set = Finset.univ := fun w => (arr_whole1 w).set_eq_univ
  have e0 : E2 m c main_v0 = (pdats m 1 c).arrAt 0 cfg1.N :=
    (((dat1 (E1 m) c).arrAt_in 0 rfl _).trans ((A_eq1 (E1 m) c 0).trans (W4_of_ne m c main_v0 (by decide)).symm)).symm
  have e1 : (pdats m 1 c).arrAt 1 cfg1.N = (pdats m 1 c).arrAt 0 cfg1.N :=
    ((dat1 (E1 m) c).arrAt_in 1 rfl _).trans (((dat1 (E1 m) c).arrAt_in 0 rfl _).trans (A_eq1 (E1 m) c 0)).symm
  have e2 : E2 m c main_v1 = (pdats m 1 c).arrAt 2 cfg1.N := W4_v1 m c
  rw [arrBufs1_eq, e0, e2]
  unfold Pipeline.Dat.arrays
  rw [bigSep_W1, hs 0, hs 1, hs 2]
  dsimp only
  rw [e1]
  iintro ⟨Ha, Hb, H1⟩
  isplitl [Ha Hb]
  · iapply (pointsTo_share (PosShare.mem_left_op_right fullShare)).2
    isplitl [Ha]; · iexact Ha
    iexact Hb
  iexact H1

/-- The buffers the second launch does not touch are the same before and after. -/
theorem rest1_eq (c : Dev nD) :
    (Pipeline.unscopedRest (Ix := Unit) (Name := ℕ) (U := UR sig nD τ) (Lvl := ℕ) spec1 c (E1 m c) : sProp 𝕄)
      = Pipeline.unscopedRest spec1 c (E2 m c) := by
  rw [unscopedRest1_eq, unscopedRest1_eq]
  rw [show E2 m c main_arg0 = E1 m c main_arg0 from W4_of_ne m c main_arg0 (by decide),
    show E2 m c main_arg1 = E1 m c main_arg1 from W4_of_ne m c main_arg1 (by decide)]

/-! ## The two launches as segments -/

set_option backward.isDefEq.respectTransparency.types false in
/-- The FIRST launch over the thread state: entered from every unscoped buffer at the launch contents, left with its
    output array at what the write-backs leave. Its three arrays are distinct buffers, each held whole. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The SECOND launch over the thread state: entered from the buffers as the first launch left them, left with the
    result array at what the write-backs leave. Two of its three windows read one array: the buffers behind the windows
    are split off the unscoped buffers, the shared one's share halved on entry and joined on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (unscopedBufs c (E1 m c) : sProp 𝕄)
        ⊢ iprop((pdats m 1 c).arrays ((pdats m 1 c).arrAt · 0) ∗ Pipeline.unscopedRest spec1 c (E1 m c)) := by
      rw [Pipeline.unscopedBufs_split₀ cfgs 1 winFacts₀1.arr_unscoped c (E1 m c)]
      exact sep_mono (arrays1_entry m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E1 m c))
        ⊢ (unscopedBufs c (E2 m c) : sProp 𝕄) := by
      rw [Pipeline.unscopedBufs_split₀ cfgs 1 winFacts₀1.arr_unscoped c (E2 m c), rest1_eq m c]
      exact sep_mono (arrays1_exit m c) .rfl
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the run -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- Every weakly fair execution of @main from memory m with zero counters terminates, nothing faulting, with every unscoped
    buffer of every core at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run_all m ρ)

/-- The run with the result named: the result array ends at what the second launch's write-backs leave, entered from the
    first launch's output; the arguments end as launched. -/
theorem run_result : θ_run defs (onTc (τ := τ) (main (F := F))) ⟨m, fun _ => 0, ρ⟩ (fun r => ∀ c : Dev nD,
      r.2.mem ((c.tc : Thread nD τ).loc main_v1) = (dat1 (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W4_v1 m c),
     (h c _ (mem_uc main_arg0 (by decide))).trans (W4_main_arg0 m c),
     (h c _ (mem_uc main_arg1 (by decide))).trans (W4_main_arg1 m c)⟩) (run_all m ρ)

/-- What the second launch is entered from at its shared input array: the first launch's output. -/
theorem E1_v0 (c : Dev nD) : E1 m c main_v0 = (dat0 (E0 m) c).arrAt 2 cfg0.N := W2_arr m c 2
theorem E0_arg0 (c : Dev nD) : E0 m c main_arg0 = m ((c : Thread nD τ).loc main_arg0) := rfl
theorem E0_arg1 (c : Dev nD) : E0 m c main_arg1 = m ((c : Thread nD τ).loc main_arg1) := rfl

end Cert.Kernel.Hand

end
-- ==== Proof.KI.Reg0.lean ====
/-
  The first launch (normalising and concatenating): on grid point i the body reads rows 512·i … 512·i+511 of the
  context and the whole weight table and, for each of the sixteen perspectives p, stores into columns 128·p … 128·p+127
  of its output block the context rows scaled by weight row p and divided by their norm (floored). This module says what
  the body leaves in its output block as a function of the two input blocks (sixteen pieces that tile the block), proves
  the body's triple, and states the launch's proof data over the contents `V` the launch is entered from.
-/
import proofs.«140578_j14869176779021_1_alg».proof.Proof.Gen.KernelIdeal.Launch
import proofs.«140578_j14869176779021_1_alg».proof.Proof.Gen.KernelIdeal.Skeleton
import proofs.«140578_j14869176779021_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole context block; weight row p; columns 128·p … 128·p+127 of the output block. -/
abbrev rCtx : Rect S512x128 := Rect.unit (s := S512x128) ![0, 0] S512x128.size inb_S512x128_S512x128_0_0
abbrev rW0 : Rect S16x128 := Rect.unit (s := S16x128) ![0, 0] S1x128.size inb_S16x128_S1x128_0_0
abbrev rO0 : Rect S512x2048 := Rect.unit (s := S512x2048) ![0, 0] S512x128.size inb_S512x2048_S512x128_0_0
abbrev rW1 : Rect S16x128 := Rect.unit (s := S16x128) ![1, 0] S1x128.size inb_S16x128_S1x128_1_0
abbrev rO1 : Rect S512x2048 := Rect.unit (s := S512x2048) ![0, 128] S512x128.size inb_S512x2048_S512x128_0_128
abbrev rW2 : Rect S16x128 := Rect.unit (s := S16x128) ![2, 0] S1x128.size inb_S16x128_S1x128_2_0
abbrev rO2 : Rect S512x2048 := Rect.unit (s := S512x2048) ![0, 256] S512x128.size inb_S512x2048_S512x128_0_256
abbrev rW3 : Rect S16x128 := Rect.unit (s := S16x128) ![3, 0] S1x128.size inb_S16x128_S1x128_3_0
abbrev rO3 : Rect S512x2048 := Rect.unit (s := S512x2048) ![0, 384] S512x128.size inb_S512x2048_S512x128_0_384
abbrev rW4 : Rect S16x128 := Rect.unit (s := S16x128) ![4, 0] S1x128.size inb_S16x128_S1x128_4_0
abbrev rO4 : Rect S512x2048 := Rect.unit (s := S512x2048) ![0, 512] S512x128.size inb_S512x2048_S512x128_0_512
abbrev rW5 : Rect S16x128 := Rect.unit (s := S16x128) ![5, 0] S1x128.size inb_S16x128_S1x128_5_0
abbrev rO5 : Rect S512x2048 := Rect.unit (s := S512x2048) ![0, 640] S512x128.size inb_S512x2048_S512x128_0_640
abbrev rW6 : Rect S16x128 := Rect.unit (s := S16x128) ![6, 0] S1x128.size inb_S16x128_S1x128_6_0
abbrev rO6 : Rect S512x2048 := Rect.unit (s := S512x2048) ![0, 768] S512x128.size inb_S512x2048_S512x128_0_768
abbrev rW7 : Rect S16x128 := Rect.unit (s := S16x128) ![7, 0] S1x128.size inb_S16x128_S1x128_7_0
abbrev rO7 : Rect S512x2048 := Rect.unit (s := S512x2048) ![0, 896] S512x128.size inb_S512x2048_S512x128_0_896
abbrev rW8 : Rect S16x128 := Rect.unit (s := S16x128) ![8, 0] S1x128.size inb_S16x128_S1x128_8_0
abbrev rO8 : Rect S512x2048 := Rect.unit (s := S512x2048) ![0, 1024] S512x128.size inb_S512x2048_S512x128_0_1024
abbrev rW9 : Rect S16x128 := Rect.unit (s := S16x128) ![9, 0] S1x128.size inb_S16x128_S1x128_9_0
abbrev rO9 : Rect S512x2048 := Rect.unit (s := S512x2048) ![0, 1152] S512x128.size inb_S512x2048_S512x128_0_1152
abbrev rW10 : Rect S16x128 := Rect.unit (s := S16x128) ![10, 0] S1x128.size inb_S16x128_S1x128_10_0
abbrev rO10 : Rect S512x2048 := Rect.unit (s := S512x2048) ![0, 1280] S512x128.size inb_S512x2048_S512x128_0_1280
abbrev rW11 : Rect S16x128 := Rect.unit (s := S16x128) ![11, 0] S1x128.size inb_S16x128_S1x128_11_0
abbrev rO11 : Rect S512x2048 := Rect.unit (s := S512x2048) ![0, 1408] S512x128.size inb_S512x2048_S512x128_0_1408
abbrev rW12 : Rect S16x128 := Rect.unit (s := S16x128) ![12, 0] S1x128.size inb_S16x128_S1x128_12_0
abbrev rO12 : Rect S512x2048 := Rect.unit (s := S512x2048) ![0, 1536] S512x128.size inb_S512x2048_S512x128_0_1536
abbrev rW13 : Rect S16x128 := Rect.unit (s := S16x128) ![13, 0] S1x128.size inb_S16x128_S1x128_13_0
abbrev rO13 : Rect S512x2048 := Rect.unit (s := S512x2048) ![0, 1664] S512x128.size inb_S512x2048_S512x128_0_1664
abbrev rW14 : Rect S16x128 := Rect.unit (s := S16x128) ![14, 0] S1x128.size inb_S16x128_S1x128_14_0
abbrev rO14 : Rect S512x2048 := Rect.unit (s := S512x2048) ![0, 1792] S512x128.size inb_S512x2048_S512x128_0_1792
abbrev rW15 : Rect S16x128 := Rect.unit (s := S16x128) ![15, 0] S1x128.size inb_S16x128_S1x128_15_0
abbrev rO15 : Rect S512x2048 := Rect.unit (s := S512x2048) ![0, 1920] S512x128.size inb_S512x2048_S512x128_0_1920

/-- What the body leaves in the output block: its sixteen stores as pieces, the last store first. Perspective p's piece is
    the context block scaled by weight row p, each row divided by the larger of its norm and the floor. -/
def out0_2 (x0 : Vec F S512x128 .f32) (x1 : Vec F S16x128 .f32) : Vec F S512x2048 .bf16 :=
  View.canon [
    ⟨rO15, k0_pay23 (View.ld x0 rCtx) (View.ld x1 rW15)⟩,
    ⟨rO14, k0_pay22 (View.ld x0 rCtx) (View.ld x1 rW14)⟩,
    ⟨rO13, k0_pay21 (k0_pay19 (View.ld x0 rCtx) (View.ld x1 rW13)) (k0_pay20 (View.ld x0 rCtx) (View.ld x1 rW13))⟩,
    ⟨rO12, k0_pay18 (View.ld x0 rCtx) (View.ld x1 rW12)⟩,
    ⟨rO11, k0_pay17 (View.ld x0 rCtx) (View.ld x1 rW11)⟩,
    ⟨rO10, k0_pay16 (k0_pay14 (View.ld x0 rCtx) (View.ld x1 rW10)) (k0_pay15 (View.ld x0 rCtx) (View.ld x1 rW10))⟩,
    ⟨rO9, k0_pay13 (View.ld x0 rCtx) (View.ld x1 rW9)⟩,
    ⟨rO8, k0_pay12 (View.ld x0 rCtx) (View.ld x1 rW8)⟩,
    ⟨rO7, k0_pay11 (View.ld x0 rCtx) (View.ld x1 rW7)⟩,
    ⟨rO6, k0_pay10 (View.ld x0 rCtx) (View.ld x1 rW6)⟩,
    ⟨rO5, k0_pay9 (View.ld x0 rCtx) (k0_pay8 (View.ld x1 rW5))⟩,
    ⟨rO4, k0_pay7 (View.ld x0 rCtx) (View.ld x1 rW4)⟩,
    ⟨rO3, k0_pay6 (View.ld x0 rCtx) (View.ld x1 rW3)⟩,
    ⟨rO2, k0_pay5 (k0_pay3 (View.ld x0 rCtx) (View.ld x1 rW2)) (k0_pay4 (View.ld x0 rCtx) (View.ld x1 rW2))⟩,
    ⟨rO1, k0_pay2 (View.ld x0 rCtx) (View.ld x1 rW1)⟩,
    ⟨rO0, k0_pay1 (View.ld x0 rCtx) (View.ld x1 rW0)⟩]

/-- The sixteen column bands tile the block, so they cover it. -/
theorem cover0_2 (p0 p1 p2 p3 p4 p5 p6 p7 p8 p9 p10 p11 p12 p13 p14 p15 : Vec F S512x128 .bf16) (y : S512x2048.Idx) :
    ∃ pc ∈ ([⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S512x2048 .bf16)), y ∈ pc.1.set :=
  View.cover_of_tiledL [⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] S512x128.size (by rfl) y

set_option maxHeartbeats 4000000 in
/-- The body on whole staging buffers: the inputs are read and kept, the output ends at `out0_2` of the inputs. -/
theorem sound_kernel0 (c : Dev nD) (E : Set ℕ) (i : grid0.Coords) (arg1 : Memref sig .tc .vmem S512x128 .f32) (harg1 : arg1.IsWhole)
    (arg2 : Memref sig .tc .vmem S16x128 .f32) (harg2 : arg2.IsWhole) (arg3 : Memref sig .tc .vmem S512x2048 .bf16) (harg3 : arg3.IsWhole)
    (x0 : Vec F S512x128 .f32) (x1 : Vec F S16x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__preprocess_kernel i arg1 harg1 arg2 harg2 arg3 harg3) K := by
  simp only [cc0__preprocess_kernel_eq_skeleton]; unfold cc0__preprocess_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _ _ _ _ _ _ _ _ _ _)

/-- The launch's proof data on core `c`: the arrays as the launch finds them; after the body each input's buffer still
    at its block and the output's at `out0_2` of the two input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
/-
  The second launch (the similarity matrix): on each grid point (i, j) the body reads block i and block j of the
  normalised, concatenated rows — both windows stage blocks of ONE array — and stores into its output block the
  masked, scaled products of the two blocks' rows. This module says what the body leaves in its output block as a
  function of the two input blocks, proves the body's triple, and states the launch's proof data over the contents
  `V` the launch is entered from. The two input windows hold the shared array at complementary half shares.
-/
import proofs.«140578_j14869176779021_1_alg».proof.Proof.Gen.KernelIdeal.Launch
import proofs.«140578_j14869176779021_1_alg».proof.Proof.Gen.KernelIdeal.Skeleton
import proofs.«140578_j14869176779021_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole of an input block, and the whole of the output block. -/
abbrev rIn1 : Rect S1024x2048 := Rect.unit (s := S1024x2048) ![0, 0] S1024x2048.size inb_S1024x2048_S1024x2048_0_0
abbrev rOut1 : Rect S1024x1024 := Rect.unit (s := S1024x1024) ![0, 0] S1024x1024.size inb_S1024x1024_S1024x1024_0_0

/-- What the body leaves in the output block: its one store, of the masked scaled products of the two input blocks. -/
def out1_2 (x0 x1 : Vec F S1024x2048 .bf16) : Vec F S1024x1024 .f32 :=
  View.canon [⟨rOut1, k1_pay1 (View.ld x0 rIn1) (View.ld x1 rIn1)⟩]

theorem cover1_2 (p0 : Vec F S1024x1024 .f32) (y : S1024x1024.Idx) :
    ∃ pc ∈ ([⟨rOut1, p0⟩] : List (View.Piece (Elt F) S1024x1024 .f32)), y ∈ pc.1.set :=
  View.cover_of_tiled [⟨rOut1, p0⟩] S1024x1024.size (by rfl) y

set_option maxHeartbeats 1000000 in
/-- The body on whole staging buffers: the inputs are read and kept, the output ends at `out1_2` of the inputs. -/
theorem sound_kernel1 (c : Dev nD) (E : Set ℕ) (i : grid1.Coords) (arg2 : Memref sig .tc .vmem S1024x2048 .bf16) (harg2 : arg2.IsWhole)
    (arg3 : Memref sig .tc .vmem S1024x2048 .bf16) (harg3 : arg3.IsWhole) (arg4 : Memref sig .tc .vmem S1024x1024 .f32) (harg4 : arg4.IsWhole)
    (x0 x1 : Vec F S1024x2048 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__matmul_kernel i arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The launch's proof data on core `c`: the arrays as the launch finds them; after the body each input's buffer still
    at its block and the output's at `out1_2` of the two input blocks; the two input windows read ONE array and hold it at
    the two halves of the full share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The whole program as a run: @main is the first launch followed by the second, with nothing in between. The buffers'
  contents are followed from the launch memory `m`: the first launch changes only its output array (to what its eight
  write-backs leave), the second reads that array through BOTH of its input windows — the array's full share is split in
  two halves on entry and joined again on exit — and changes only the result array. Every weakly fair execution ends with
  each buffer at these contents; the frame (the arguments unchanged) and the result's value are read off that.
-/
import proofs.«140578_j14869176779021_1_alg».proof.Proof.KI.Reg0
import proofs.«140578_j14869176779021_1_alg».proof.Proof.KI.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => m (c, b)
/-- The same read at the TensorCore's references: what the first launch is entered from. -/
abbrev E0 : (c : Dev nD) → (b : Ref sig .tc) → Buf (Elt F) ((c : Thread nD τ).loc b) := fun c b => W0 m c b
/-- After the first launch: its output array at what the write-backs leave, every other buffer as before. -/
def W2 (c : Dev nD) : Valuation τ sig (Elt F) :=
  Pipeline.withArrays spec0 c (W0 m c) fun w => (dat0 (E0 m) c).arrAt w cfg0.N
theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same at the TensorCore's references: what the second launch is entered from. -/
abbrev E1 : (c : Dev nD) → (b : Ref sig .tc) → Buf (Elt F) ((c : Thread nD τ).loc b) := fun c b => W2 m c b
theorem hF0 (c : Dev nD) (w : Fin cfg0.W) : (dat0 (E0 m) c).arrAt w cfg0.N = E1 m c (Pipeline.arrRef spec0 w) :=
  (W2_arr m c w).symm
theorem hrest0 (c : Dev nD) : ∀ b, b ∉ Finset.univ.image (Pipeline.arrRef spec0) → E1 m c b = E0 m c b :=
  fun b hb => W2_of_ne m c b fun w e => hb (Finset.mem_image.mpr ⟨w, Finset.mem_univ _, e⟩)

/-- After the second launch: the result array at what its write-backs leave, every other buffer as before. -/
def W4 (c : Dev nD) : Valuation τ sig (Elt F) :=
  Function.update (W2 m c) (Proc.devRef .tc main_v1) ((dat1 (E1 m) c).arrAt 2 cfg1.N)
abbrev E2 : (c : Dev nD) → (b : Ref sig .tc) → Buf (Elt F) ((c : Thread nD τ).loc b) := fun c b => W4 m c b
theorem W4_v1 (c : Dev nD) : W4 m c (Proc.devRef .tc main_v1) = (dat1 (E1 m) c).arrAt 2 cfg1.N := by
  unfold W4; exact Function.update_self _ _ _
theorem W4_of_ne (c : Dev nD) (b : Ref sig .tc) (hb : b ≠ main_v1) :
    W4 m c (Proc.devRef .tc b) = W2 m c (Proc.devRef .tc b) := by
  unfold W4; exact Function.update_of_ne (StableHlo.devRef_ne_of_ne hb) _ _

/-- The arguments are never written. -/
theorem W4_main_arg0 (c : Dev nD) : W4 m c (Proc.devRef .tc main_arg0) = m ((c : Thread nD τ).loc main_arg0) :=
  (W4_of_ne m c main_arg0 (by decide)).trans
    ((W2_arr m c 0).trans (((dat0 (E0 m) c).arrAt_in 0 rfl _).trans (A_eq0 (E0 m) c 0)))
theorem W4_main_arg1 (c : Dev nD) : W4 m c (Proc.devRef .tc main_arg1) = m ((c : Thread nD τ).loc main_arg1) :=
  (W4_of_ne m c main_arg1 (by decide)).trans
    ((W2_arr m c 1).trans (((dat0 (E0 m) c).arrAt_in 1 rfl _).trans (A_eq0 (E0 m) c 1)))

/-! ## The proof data family and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- The core's generator register at some state and its dues, none. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The second launch's arrays: one buffer behind two windows -/

/-- The two distinct buffers behind the second launch's three windows, each whole at the full share. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)) := by
  unfold Pipeline.arrBufs; exact bigSep_eq_bigSepL_of_eq [main_v0, main_v1] (by decide) (by decide) _

/-- On entry: the shared array's share is split in two halves, one per input window. -/
theorem arrays1_entry (c : Dev nD) :
    (Pipeline.arrBufs (Ix := Unit) (Name := ℕ) (U := UR sig nD τ) (Lvl := ℕ) spec1 c (E1 m c) : sProp 𝕄)
      ⊢ (pdats m 1 c).arrays ((pdats m 1 c).arrAt · 0) := by
  have hs : ∀ w : Fin 3, ((Pipeline.pin (pcfgs (F := F)) adm 1).win w).arr.view.set = Finset.univ := fun w => (arr_whole1 w).set_eq_univ
  rw [arrBufs1_eq]
  unfold Pipeline.Dat.arrays
  rw [bigSep_W1, hs 0, hs 1, hs 2]
  iintro ⟨H0, H1⟩
  ihave H0' := (pointsTo_share (PosShare.mem_left_op_right fullShare)).1 $$ H0
  icases H0' with ⟨Ha, Hb⟩
  isplitl [Ha]; · iexact Ha
  isplitl [Hb]; · iexact Hb
  iexact H1

/-- On exit: the halves are joined and the result array is at what the write-backs left. -/
theorem arrays1_exit (c : Dev nD) :
    ((pdats m 1 c).arrays ((pdats m 1 c).arrAt · cfg1.N) : sProp 𝕄)
      ⊢ Pipeline.arrBufs (Ix := Unit) (Name := ℕ) (U := UR sig nD τ) (Lvl := ℕ) spec1 c (E2 m c) := by
  have hs : ∀ w : Fin 3, ((Pipeline.pin (pcfgs (F := F)) adm 1).win w).arr.view.set = Finset.univ := fun w => (arr_whole1 w).set_eq_univ
  have e0 : E2 m c main_v0 = (pdats m 1 c).arrAt 0 cfg1.N :=
    (((dat1 (E1 m) c).arrAt_in 0 rfl _).trans ((A_eq1 (E1 m) c 0).trans (W4_of_ne m c main_v0 (by decide)).symm)).symm
  have e1 : (pdats m 1 c).arrAt 1 cfg1.N = (pdats m 1 c).arrAt 0 cfg1.N :=
    ((dat1 (E1 m) c).arrAt_in 1 rfl _).trans (((dat1 (E1 m) c).arrAt_in 0 rfl _).trans (A_eq1 (E1 m) c 0)).symm
  have e2 : E2 m c main_v1 = (pdats m 1 c).arrAt 2 cfg1.N := W4_v1 m c
  rw [arrBufs1_eq, e0, e2]
  unfold Pipeline.Dat.arrays
  rw [bigSep_W1, hs 0, hs 1, hs 2]
  dsimp only
  rw [e1]
  iintro ⟨Ha, Hb, H1⟩
  isplitl [Ha Hb]
  · iapply (pointsTo_share (PosShare.mem_left_op_right fullShare)).2
    isplitl [Ha]; · iexact Ha
    iexact Hb
  iexact H1

/-- The buffers the second launch does not touch are the same before and after. -/
theorem rest1_eq (c : Dev nD) :
    (Pipeline.unscopedRest (Ix := Unit) (Name := ℕ) (U := UR sig nD τ) (Lvl := ℕ) spec1 c (E1 m c) : sProp 𝕄)
      = Pipeline.unscopedRest spec1 c (E2 m c) := by
  rw [unscopedRest1_eq, unscopedRest1_eq]
  rw [show E2 m c main_arg0 = E1 m c main_arg0 from W4_of_ne m c main_arg0 (by decide),
    show E2 m c main_arg1 = E1 m c main_arg1 from W4_of_ne m c main_arg1 (by decide)]

/-! ## The two launches as segments -/

set_option backward.isDefEq.respectTransparency.types false in
/-- The FIRST launch over the thread state: entered from every unscoped buffer at the launch contents, left with its
    output array at what the write-backs leave. Its three arrays are distinct buffers, each held whole. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The SECOND launch over the thread state: entered from the buffers as the first launch left them, left with the
    result array at what the write-backs leave. Two of its three windows read one array: the buffers behind the windows
    are split off the unscoped buffers, the shared one's share halved on entry and joined on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (unscopedBufs c (E1 m c) : sProp 𝕄)
        ⊢ iprop((pdats m 1 c).arrays ((pdats m 1 c).arrAt · 0) ∗ Pipeline.unscopedRest spec1 c (E1 m c)) := by
      rw [Pipeline.unscopedBufs_split₀ cfgs 1 winFacts₀1.arr_unscoped c (E1 m c)]
      exact sep_mono (arrays1_entry m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E1 m c))
        ⊢ (unscopedBufs c (E2 m c) : sProp 𝕄) := by
      rw [Pipeline.unscopedBufs_split₀ cfgs 1 winFacts₀1.arr_unscoped c (E2 m c), rest1_eq m c]
      exact sep_mono (arrays1_exit m c) .rfl
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the run -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- Every weakly fair execution of @main from memory m with zero counters terminates, nothing faulting, with every unscoped
    buffer of every core at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run_all m ρ)

/-- The run with the result named: the result array ends at what the second launch's write-backs leave, entered from the
    first launch's output; the arguments end as launched. -/
theorem run_result : θ_run defs (onTc (τ := τ) (main (F := F))) ⟨m, fun _ => 0, ρ⟩ (fun r => ∀ c : Dev nD,
      r.2.mem ((c.tc : Thread nD τ).loc main_v1) = (dat1 (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W4_v1 m c),
     (h c _ (mem_uc main_arg0 (by decide))).trans (W4_main_arg0 m c),
     (h c _ (mem_uc main_arg1 (by decide))).trans (W4_main_arg1 m c)⟩) (run_all m ρ)

/-- What the second launch is entered from at its shared input array: the first launch's output. -/
theorem E1_v0 (c : Dev nD) : E1 m c main_v0 = (dat0 (E0 m) c).arrAt 2 cfg0.N := W2_arr m c 2
theorem E0_arg0 (c : Dev nD) : E0 m c main_arg0 = m ((c : Thread nD τ).loc main_arg0) := rfl
theorem E0_arg1 (c : Dev nD) : E0 m c main_arg1 = m ((c : Thread nD τ).loc main_arg1) := rfl

end Cert.KernelIdeal.Hand

end
-- ==== Proof.Spec.lean ====
/-
  What both programs compute, as plain functions of the two input arrays over the extended reals.
  For context x : [4096,128] and weights w : [16,128]: perspective p scales row n entrywise by weight row p; the
  scaled row is divided by the larger of its Euclidean norm and a floor; the sixteen unit rows of row n are laid side by
  side as one row of 2048 entries (column 128·p + d); the similarity of rows n and m is the dot product of their
  2048-entry rows times one sixteenth, kept where it exceeds the threshold and zero elsewhere. The reference instead
  sums, perspective by perspective, the dot products of the unit rows and divides the sum by sixteen; the two are equal
  (`result_eq_meanCos`): a sum over 2048 = 16 × 128 columns is the double sum, and dividing by 16 is multiplying by 1/16.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SCtx : Shape := ⟨2, ![4096, 128]⟩
abbrev SW : Shape := ⟨2, ![16, 128]⟩
abbrev SCat : Shape := ⟨2, ![4096, 2048]⟩
abbrev SOut : Shape := ⟨2, ![4096, 4096]⟩

/-- The floor under a norm, the factor one sixteenth, the threshold, and the divisor sixteen: the programs' literals. -/
def floorWord : EReal := Ideal.ofBits .f32 0x2B8CBCCC#32
def sixteenth : EReal := Ideal.ofBits .f32 0x3D800000#32
def threshold : EReal := Ideal.ofBits .f32 0x3DCCCCCD#32
def sixteen : EReal := Ideal.ofBits .f32 0x41800000#32

/-- Entry d of row n scaled by perspective p's weight (for any number R of rows: the whole array has 4096, a block 512). -/
def scaled {R : Nat} (x : (⟨2, ![R, 128]⟩ : Shape).Idx → EReal) (w : SW.Idx → EReal) (p : Fin 16) (n : Fin R) (d : Fin 128) : EReal :=
  x (ix2 n d) * w (ix2 p d)

/-- The norm of the scaled row, floored. -/
def flooredNorm {R : Nat} (x : (⟨2, ![R, 128]⟩ : Shape).Idx → EReal) (w : SW.Idx → EReal) (p : Fin 16) (n : Fin R) : EReal :=
  max (Ideal.sqrt (∑ d : Fin 128, scaled x w p n d * scaled x w p n d)) floorWord

/-- The unit row of perspective p at row n. -/
def unitRow {R : Nat} (x : (⟨2, ![R, 128]⟩ : Shape).Idx → EReal) (w : SW.Idx → EReal) (p : Fin 16) (n : Fin R) (d : Fin 128) : EReal :=
  Ideal.div (scaled x w p n d) (flooredNorm x w p n)

/-- The sixteen unit rows side by side: column k holds perspective k / 128 at entry k % 128. -/
def concatAt {R : Nat} (x : (⟨2, ![R, 128]⟩ : Shape).Idx → EReal) (w : SW.Idx → EReal) (n : Fin R) (k : Fin 2048) : EReal :=
  unitRow x w ⟨k.val / 128, by have := k.isLt; omega⟩ n ⟨k.val % 128, Nat.mod_lt _ (by decide)⟩

def concat (x : SCtx.Idx → EReal) (w : SW.Idx → EReal) : SCat.Idx → EReal := fun j => concatAt x w (j 0) (j 1)

/-- Keep a value above the threshold, drop the others. -/
def keep (a : EReal) : EReal := if threshold < a then 1 else 0
def masked (a : EReal) : EReal := a * keep a

/-- The kernel's arrangement: one dot product over the 2048 columns, times one sixteenth, masked. -/
def similarity (X : SCat.Idx → EReal) : SOut.Idx → EReal := fun i =>
  masked ((∑ k : Fin 2048, X (ix2 (i 0) k) * X (ix2 (i 1) k)) * sixteenth)

def result (x : SCtx.Idx → EReal) (w : SW.Idx → EReal) : SOut.Idx → EReal := similarity (concat x w)

/-- The reference's arrangement: the per-perspective dot products summed, divided by sixteen, masked. -/
def meanCos (x : SCtx.Idx → EReal) (w : SW.Idx → EReal) : SOut.Idx → EReal := fun i =>
  masked (Ideal.div (∑ p : Fin 16, ∑ d : Fin 128, unitRow x w p (i 0) d * unitRow x w p (i 1) d) sixteen)

/-- The pattern 0x41800000 denotes the real 16. -/
theorem sixteen_eq : sixteen = ((16 : ℝ) : EReal) := by
  unfold sixteen
  simp [Ideal.ofBits, Ideal.ieee, -EReal.coe_mul]; norm_num

/-- The pattern 0x3D800000 denotes the real 1/16. -/
theorem sixteenth_eq : sixteenth = (((1 : ℝ) / 16 : ℝ) : EReal) := by
  unfold sixteenth
  simp [Ideal.ofBits, Ideal.ieee, -EReal.coe_mul]; norm_num

/-- Multiplying by one sixteenth is dividing by sixteen, for every extended real (the infinities included). -/
theorem mul_sixteenth (a : EReal) : a * sixteenth = Ideal.div a sixteen := by
  rw [sixteen_eq, sixteenth_eq, Ideal.div_coe (by norm_num : (16 : ℝ) ≠ 0)]

/-- Column 128·p + d of the wide row is entry d of perspective p's unit row. -/
theorem concatAt_pair {R : Nat} (x : (⟨2, ![R, 128]⟩ : Shape).Idx → EReal) (w : SW.Idx → EReal) (n : Fin R)
    (p : Fin 16) (d : Fin 128) :
    concatAt x w n ((finProdFinEquiv : Fin 16 × Fin 128 ≃ Fin (16 * 128)) (p, d)) = unitRow x w p n d := by
  have hp : (d.val + 128 * p.val) / 128 = p.val := by have := d.isLt; omega
  have hd : (d.val + 128 * p.val) % 128 = d.val := by have := d.isLt; omega
  unfold concatAt
  congr 1
  · exact Fin.ext hp
  · exact Fin.ext hd

/-- The dot product over the 2048 columns is the sum over the sixteen perspectives of the dot products of the unit rows:
    the columns are the pairs (p, d) through k = 128·p + d. -/
theorem sum_concatAt {R : Nat} (x : (⟨2, ![R, 128]⟩ : Shape).Idx → EReal) (w : SW.Idx → EReal) (n m : Fin R) :
    ∑ k : Fin 2048, concatAt x w n k * concatAt x w m k
      = ∑ p : Fin 16, ∑ d : Fin 128, unitRow x w p n d * unitRow x w p m d := by
  rw [← Fintype.sum_prod_type' (f := fun (p : Fin 16) (d : Fin 128) => unitRow x w p n d * unitRow x w p m d)]
  symm
  refine Fintype.sum_equiv (finProdFinEquiv : Fin 16 × Fin 128 ≃ Fin (16 * 128)) _ _ ?_
  rintro ⟨p, d⟩
  rw [concatAt_pair, concatAt_pair]

theorem result_eq_meanCos (x : SCtx.Idx → EReal) (w : SW.Idx → EReal) : result x w = meanCos x w := by
  funext i
  unfold result similarity meanCos concat
  congr 1
  rw [mul_sixteenth]
  congr 1
  exact sum_concatAt x w (i 0) (i 1)

end Cert.Spec

end
-- ==== Proof.KI.Pieces0a.lean ====
/-
  The first launch's stored pieces read entry by entry (perspectives 0 to 7): the piece of perspective p at row r and entry d
  is the block's row r scaled entrywise by weight row p, divided by the larger of that scaled row's norm and the floor.
-/
import proofs.«140578_j14869176779021_1_alg».proof.Proof.KI.Reg0
import proofs.«140578_j14869176779021_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The steps of the chain read at an index

Every perspective's piece is one and the same chain applied to the block and to one weight row: the row is cast to a
vector and back and laid over the 512 rows; the block is scaled by it entrywise; each row's squares are summed over its 128
entries, the sum is made a column, its square root taken and floored, the column laid over the 128 entries; the scaled
block is divided by it; the change of format is the identity on the extended reals. -/

namespace P0a

/-- A vector cast to a column: an `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many: an `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The whole block read through the whole-block rectangle is the block. -/
theorem ld_ctx (x0 : Vec Ideal S512x128 .f32) : View.ld x0 rCtx = x0 :=
  View.ld_unit_zero (by funext a; match a with | ⟨0, _⟩ => rfl | ⟨1, _⟩ => rfl) _ x0

/-- Row `p` of the weights read through the one-row rectangle at row `p`: entry `d` of that row. -/
theorem ld_row (x1 : Vec Ideal S16x128 .f32) (p : Fin 16) (inb : ∀ a, (![p.val, 0] : Fin 2 → Nat) a + S1x128.size a ≤ S16x128.size a)
    (d : Fin 128) :
    View.ld x1 (Rect.unit (s := S16x128) ![p.val, 0] S1x128.size inb) (ix2 (0 : Fin 1) d) = x1 (ix2 p d) := by
  show x1 _ = x1 _
  congr 1
  funext a
  match a with
  | ⟨0, _⟩ => exact Fin.ext (by show p.val + 1 * 0 = p.val; omega)
  | ⟨1, _⟩ => exact Fin.ext (by show 0 + 1 * d.val = d.val; omega)

/-- The square root of a vector at an index is the ideal square root of the element. -/
theorem sqrt_apply {s : Shape} {φ : FTy} (x : FVec Ideal s φ) (i : s.Idx) : sqrt x i = Ideal.sqrt (x i) := rfl

/-- A weight row cast to a vector and back, then broadcast over the 512 rows, reads the row's entry `d` at `(r, d)`. -/
theorem wrow_apply (v1 : Vec Ideal S1x128 .f32) (r : Fin 512) (d : Fin 128) :
    (broadcastTo S512x128 (shapeCast S1x128 (shapeCast S128 v1 shapeCasts_S1x128_S128) shapeCasts_S128_S1x128)
      broadcasts_S1x128_S512x128 : FVec Ideal S512x128 .f32) (ix2 r d) = v1 (ix2 (0 : Fin 1) d) := by
  rw [broadcastTo_1b_ab_apply, shapeCast_a_1a_apply, shapeCast_1a_a_apply]

/-- The sum over the 128 entries of each row of a [512,128] block, read at row `r`. -/
theorem rowsum_apply (w : FVec Ideal S512x128 .f32) (r : Fin 512) :
    multiReduction (F := Ideal) .add [1] S512 w 0x00000000#32 reduces_S512x128_S512 (.inl rfl) rfl (ix1 r)
      = ∑ d' : Fin 128, w (ix2 r d') := by
  refine (Ideal.multiReduction_add_single w 0x00000000#32 reduces_S512x128_S512 (.inl rfl) rfl (ix1 r)).trans ?_
  refine Finset.sum_congr rfl fun k _ => congrArg w ?_
  funext a
  match a with
  | ⟨0, _⟩ => rfl
  | ⟨1, _⟩ => rfl

/-- The common chain: a block scaled entrywise by one weight row (whose entries are `w`), each row divided by the larger
    of its norm and the floor, read at `(r, d)`. -/
theorem unit_chain_apply (v0 : Vec Ideal S512x128 .f32) (v1 : Vec Ideal S1x128 .f32) (w : Fin 128 → EReal)
    (hw : ∀ d, v1 (ix2 (0 : Fin 1) d) = w d) (r : Fin 512) (d : Fin 128) :
    (k0_pay1 v0 v1 : FVec Ideal S512x128 .bf16) (ix2 r d)
      = Ideal.div (v0 (ix2 r d) * w d)
          (max (Ideal.sqrt (∑ d' : Fin 128, (v0 (ix2 r d') * w d') * (v0 (ix2 r d') * w d')))
            (Ideal.ofBits .f32 0x2B8CBCCC#32)) := by
  unfold k0_pay1
  dsimp only
  rw [truncf_apply, divf_apply, mulf_apply, wrow_apply, broadcastTo_a1_ab_apply, maximumf_apply, broadcast_apply,
    sqrt_apply, shapeCast_a_a1_apply, rowsum_apply]
  simp only [mulf_apply, wrow_apply, hw]
  rfl

/-- The common chain fed the whole block and weight row `p` is the unit row of perspective `p`: the floor literal is the
    specification's floor word, and the sum of squares is over the same scaled entries. -/
theorem unit_chain_ld (x0 : Vec Ideal S512x128 .f32) (x1 : Vec Ideal S16x128 .f32) (p : Fin 16)
    (inb : ∀ a, (![p.val, 0] : Fin 2 → Nat) a + S1x128.size a ≤ S16x128.size a) (r : Fin 512) (d : Fin 128) :
    (k0_pay1 (View.ld x0 rCtx) (View.ld x1 (Rect.unit (s := S16x128) ![p.val, 0] S1x128.size inb)) : FVec Ideal S512x128 .bf16) (ix2 r d)
      = Cert.Spec.unitRow x0 x1 p r d := by
  rw [unit_chain_apply _ _ (fun d => x1 (ix2 p d)) (ld_row x1 p inb) r d, ld_ctx]
  rfl

end P0a

/-- Perspective 0's piece, entry by entry, is the unit row of perspective 0. -/
theorem piece0_0 (x0 : Vec Ideal S512x128 .f32) (x1 : Vec Ideal S16x128 .f32) (r : Fin 512) (d : Fin 128) :
    (k0_pay1 (View.ld x0 rCtx) (View.ld x1 rW0) : FVec Ideal S512x128 .bf16) (ix2 r d) = Cert.Spec.unitRow x0 x1 (0 : Fin 16) r d :=
  P0a.unit_chain_ld x0 x1 0 _ r d

/-- Perspective 1's piece, entry by entry, is the unit row of perspective 1. -/
theorem piece0_1 (x0 : Vec Ideal S512x128 .f32) (x1 : Vec Ideal S16x128 .f32) (r : Fin 512) (d : Fin 128) :
    (k0_pay2 (View.ld x0 rCtx) (View.ld x1 rW1) : FVec Ideal S512x128 .bf16) (ix2 r d) = Cert.Spec.unitRow x0 x1 (1 : Fin 16) r d :=
  P0a.unit_chain_ld x0 x1 1 _ r d

/-- Perspective 2's piece, entry by entry, is the unit row of perspective 2. -/
theorem piece0_2 (x0 : Vec Ideal S512x128 .f32) (x1 : Vec Ideal S16x128 .f32) (r : Fin 512) (d : Fin 128) :
    (k0_pay5 (k0_pay3 (View.ld x0 rCtx) (View.ld x1 rW2)) (k0_pay4 (View.ld x0 rCtx) (View.ld x1 rW2)) : FVec Ideal S512x128 .bf16) (ix2 r d) = Cert.Spec.unitRow x0 x1 (2 : Fin 16) r d :=
  P0a.unit_chain_ld x0 x1 2 _ r d

/-- Perspective 3's piece, entry by entry, is the unit row of perspective 3. -/
theorem piece0_3 (x0 : Vec Ideal S512x128 .f32) (x1 : Vec Ideal S16x128 .f32) (r : Fin 512) (d : Fin 128) :
    (k0_pay6 (View.ld x0 rCtx) (View.ld x1 rW3) : FVec Ideal S512x128 .bf16) (ix2 r d) = Cert.Spec.unitRow x0 x1 (3 : Fin 16) r d :=
  P0a.unit_chain_ld x0 x1 3 _ r d

/-- Perspective 4's piece, entry by entry, is the unit row of perspective 4. -/
theorem piece0_4 (x0 : Vec Ideal S512x128 .f32) (x1 : Vec Ideal S16x128 .f32) (r : Fin 512) (d : Fin 128) :
    (k0_pay7 (View.ld x0 rCtx) (View.ld x1 rW4) : FVec Ideal S512x128 .bf16) (ix2 r d) = Cert.Spec.unitRow x0 x1 (4 : Fin 16) r d :=
  P0a.unit_chain_ld x0 x1 4 _ r d

/-- Perspective 5's piece, entry by entry, is the unit row of perspective 5. -/
theorem piece0_5 (x0 : Vec Ideal S512x128 .f32) (x1 : Vec Ideal S16x128 .f32) (r : Fin 512) (d : Fin 128) :
    (k0_pay9 (View.ld x0 rCtx) (k0_pay8 (View.ld x1 rW5)) : FVec Ideal S512x128 .bf16) (ix2 r d) = Cert.Spec.unitRow x0 x1 (5 : Fin 16) r d :=
  P0a.unit_chain_ld x0 x1 5 _ r d

/-- Perspective 6's piece, entry by entry, is the unit row of perspective 6. -/
theorem piece0_6 (x0 : Vec Ideal S512x128 .f32) (x1 : Vec Ideal S16x128 .f32) (r : Fin 512) (d : Fin 128) :
    (k0_pay10 (View.ld x0 rCtx) (View.ld x1 rW6) : FVec Ideal S512x128 .bf16) (ix2 r d) = Cert.Spec.unitRow x0 x1 (6 : Fin 16) r d :=
  P0a.unit_chain_ld x0 x1 6 _ r d

/-- Perspective 7's piece, entry by entry, is the unit row of perspective 7. -/
theorem piece0_7 (x0 : Vec Ideal S512x128 .f32) (x1 : Vec Ideal S16x128 .f32) (r : Fin 512) (d : Fin 128) :
    (k0_pay11 (View.ld x0 rCtx) (View.ld x1 rW7) : FVec Ideal S512x128 .bf16) (ix2 r d) = Cert.Spec.unitRow x0 x1 (7 : Fin 16) r d :=
  P0a.unit_chain_ld x0 x1 7 _ r d

end Cert.KernelIdeal.Hand

end
-- ==== Proof.KI.Pieces0b.lean ====
/-
  The first launch's stored pieces read entry by entry (perspectives 8 to 15): the piece of perspective p at row r and entry d
  is the block's row r scaled entrywise by weight row p, divided by the larger of that scaled row's norm and the floor.
-/
import proofs.«140578_j14869176779021_1_alg».proof.Proof.KI.Reg0
import proofs.«140578_j14869176779021_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

namespace P0b

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its rows to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along a row of a [512, 128] block, from the zero word, is the sum over the row's 128 entries. -/
theorem rowSum_apply (src : FVec Ideal S512x128 .f32) (hφ : FKind.Formats FTy.f32)
    (hacc : (0x00000000#32 : BitVec FTy.f32.bits) = FKind.add.neutral .f32 hφ) (r : Fin 512) :
    multiReduction (F := Ideal) .add [1] S512 src 0x00000000#32 reduces_S512x128_S512 hφ hacc (ix1 r)
      = ∑ d : Fin 128, src (ix2 r d) := by
  refine (Ideal.multiReduction_add_single src _ reduces_S512x128_S512 hφ hacc (ix1 r)).trans ?_
  refine Finset.sum_congr rfl fun d _ => congrArg src ?_
  funext a
  match a with
  | ⟨0, _⟩ => rfl
  | ⟨1, _⟩ => rfl

end P0b

namespace P0b

/-- The whole-block load reads the block. -/
theorem ldCtx_apply (x0 : Vec Ideal S512x128 .f32) (r : Fin 512) (d : Fin 128) :
    View.ld x0 rCtx (ix2 r d) = x0 (ix2 r d) :=
  congrArg x0 (funext fun a => Fin.ext (by
    match a with
    | ⟨0, _⟩ => show 0 + 1 * r.val = r.val; omega
    | ⟨1, _⟩ => show 0 + 1 * d.val = d.val; omega))

/-- The load of the one weight row at offset o reads, at (0, d), the weights at (o, d). -/
theorem ldW_apply (x1 : Vec Ideal S16x128 .f32) (o : Nat)
    (inb : ∀ a, (![o, 0] : Fin 2 → Nat) a + S1x128.size a ≤ S16x128.size a) (p : Fin 16) (hp : p.val = o) (d : Fin 128) :
    View.ld x1 (Rect.unit (s := S16x128) ![o, 0] S1x128.size inb) (ix2 (0 : Fin 1) d) = x1 (ix2 p d) :=
  congrArg x1 (funext fun a => Fin.ext (by
    match a with
    | ⟨0, _⟩ => show o + 1 * 0 = p.val; omega
    | ⟨1, _⟩ => show 0 + 1 * d.val = d.val; omega))

/-- A weight row, flattened, restored and repeated down the 512 rows, reads at (r, d) its entry d. -/
theorem wRow_apply (v : FVec Ideal S1x128 .f32) (r : Fin 512) (d : Fin 128) :
    broadcastTo S512x128 (shapeCast S1x128 (shapeCast S128 v shapeCasts_S1x128_S128) shapeCasts_S128_S1x128)
      broadcasts_S1x128_S512x128 (ix2 r d) = v (ix2 (0 : Fin 1) d) := by
  rw [broadcastTo_1b_ab_apply, shapeCast_a_1a_apply, shapeCast_1a_a_apply]

/-- The floored norm of a block's rows, as a column repeated along the row: at (r, d) the larger of the square root of
    row r's sum of squares and the floor. -/
theorem flooredNorm_apply (Y : FVec Ideal S512x128 .f32) (hφ : FKind.Formats FTy.f32)
    (hacc : (0x00000000#32 : BitVec FTy.f32.bits) = FKind.add.neutral .f32 hφ) (r : Fin 512) (d : Fin 128) :
    broadcastTo S512x128
        (maximumf (sqrt (shapeCast S512x1 (multiReduction (F := Ideal) .add [1] S512 (mulf Y Y) 0x00000000#32 reduces_S512x128_S512 hφ hacc)
            shapeCasts_S512_S512x1))
          (broadcast S512x1 (Scalar.ofBits (F := Ideal) .f32 0x2B8CBCCC#32)))
        broadcasts_S512x1_S512x128 (ix2 r d)
      = max (Ideal.sqrt (∑ d' : Fin 128, Y (ix2 r d') * Y (ix2 r d'))) Cert.Spec.floorWord := by
  rw [broadcastTo_a1_ab_apply, maximumf_apply, broadcast_apply]
  show max (Ideal.sqrt (shapeCast S512x1 (multiReduction (F := Ideal) .add [1] S512 (mulf Y Y) 0x00000000#32 reduces_S512x128_S512 hφ hacc)
      shapeCasts_S512_S512x1 (ix2 r (0 : Fin 1)))) (Ideal.ofBits .f32 0x2B8CBCCC#32) = _
  rw [shapeCast_a_a1_apply, rowSum_apply]
  rfl

/-- THE COMMON CHAIN. For a block X that reads as x0 and a weight row v that reads as row p of x1: the block scaled by
    the row, divided by its rows' floored norms and narrowed, is at (r, d) the unit row of perspective p. -/
theorem unit_chain (x0 : Vec Ideal S512x128 .f32) (x1 : Vec Ideal S16x128 .f32) (p : Fin 16)
    (X : FVec Ideal S512x128 .f32) (v : FVec Ideal S1x128 .f32)
    (hX : ∀ r d, X (ix2 r d) = x0 (ix2 r d)) (hv : ∀ d, v (ix2 (0 : Fin 1) d) = x1 (ix2 p d))
    (hφ : FKind.Formats FTy.f32) (hacc : (0x00000000#32 : BitVec FTy.f32.bits) = FKind.add.neutral .f32 hφ)
    (r : Fin 512) (d : Fin 128) :
    (truncf .bf16
        (divf
          (mulf X (broadcastTo S512x128 (shapeCast S1x128 (shapeCast S128 v shapeCasts_S1x128_S128) shapeCasts_S128_S1x128) broadcasts_S1x128_S512x128))
          (broadcastTo S512x128
            (maximumf
              (sqrt (shapeCast S512x1
                (multiReduction (F := Ideal) .add [1] S512
                  (mulf
                    (mulf X (broadcastTo S512x128 (shapeCast S1x128 (shapeCast S128 v shapeCasts_S1x128_S128) shapeCasts_S128_S1x128) broadcasts_S1x128_S512x128))
                    (mulf X (broadcastTo S512x128 (shapeCast S1x128 (shapeCast S128 v shapeCasts_S1x128_S128) shapeCasts_S128_S1x128) broadcasts_S1x128_S512x128)))
                  0x00000000#32 reduces_S512x128_S512 hφ hacc)
                shapeCasts_S512_S512x1))
              (broadcast S512x1 (Scalar.ofBits (F := Ideal) .f32 0x2B8CBCCC#32)))
            broadcasts_S512x1_S512x128))
        bitsLt_bf16_f32 : FVec Ideal S512x128 .bf16) (ix2 r d)
      = Cert.Spec.unitRow x0 x1 p r d := by
  rw [truncf_apply, divf_apply, flooredNorm_apply]
  simp only [mulf_apply, wRow_apply, hX, hv]
  rfl

end P0b

/-- Perspective 8's piece, entry by entry, is the unit row of perspective 8. -/
theorem piece0_8 (x0 : Vec Ideal S512x128 .f32) (x1 : Vec Ideal S16x128 .f32) (r : Fin 512) (d : Fin 128) :
    (k0_pay12 (View.ld x0 rCtx) (View.ld x1 rW8) : FVec Ideal S512x128 .bf16) (ix2 r d) = Cert.Spec.unitRow x0 x1 (8 : Fin 16) r d :=
  P0b.unit_chain x0 x1 8 _ _ (P0b.ldCtx_apply x0) (P0b.ldW_apply x1 8 _ 8 rfl) (.inl rfl) rfl r d

/-- Perspective 9's piece, entry by entry, is the unit row of perspective 9. -/
theorem piece0_9 (x0 : Vec Ideal S512x128 .f32) (x1 : Vec Ideal S16x128 .f32) (r : Fin 512) (d : Fin 128) :
    (k0_pay13 (View.ld x0 rCtx) (View.ld x1 rW9) : FVec Ideal S512x128 .bf16) (ix2 r d) = Cert.Spec.unitRow x0 x1 (9 : Fin 16) r d :=
  P0b.unit_chain x0 x1 9 _ _ (P0b.ldCtx_apply x0) (P0b.ldW_apply x1 9 _ 9 rfl) (.inl rfl) rfl r d

/-- Perspective 10's piece, entry by entry, is the unit row of perspective 10. -/
theorem piece0_10 (x0 : Vec Ideal S512x128 .f32) (x1 : Vec Ideal S16x128 .f32) (r : Fin 512) (d : Fin 128) :
    (k0_pay16 (k0_pay14 (View.ld x0 rCtx) (View.ld x1 rW10)) (k0_pay15 (View.ld x0 rCtx) (View.ld x1 rW10)) : FVec Ideal S512x128 .bf16) (ix2 r d) = Cert.Spec.unitRow x0 x1 (10 : Fin 16) r d :=
  P0b.unit_chain x0 x1 10 _ _ (P0b.ldCtx_apply x0) (P0b.ldW_apply x1 10 _ 10 rfl) (.inl rfl) rfl r d

/-- Perspective 11's piece, entry by entry, is the unit row of perspective 11. -/
theorem piece0_11 (x0 : Vec Ideal S512x128 .f32) (x1 : Vec Ideal S16x128 .f32) (r : Fin 512) (d : Fin 128) :
    (k0_pay17 (View.ld x0 rCtx) (View.ld x1 rW11) : FVec Ideal S512x128 .bf16) (ix2 r d) = Cert.Spec.unitRow x0 x1 (11 : Fin 16) r d :=
  P0b.unit_chain x0 x1 11 _ _ (P0b.ldCtx_apply x0) (P0b.ldW_apply x1 11 _ 11 rfl) (.inl rfl) rfl r d

/-- Perspective 12's piece, entry by entry, is the unit row of perspective 12. -/
theorem piece0_12 (x0 : Vec Ideal S512x128 .f32) (x1 : Vec Ideal S16x128 .f32) (r : Fin 512) (d : Fin 128) :
    (k0_pay18 (View.ld x0 rCtx) (View.ld x1 rW12) : FVec Ideal S512x128 .bf16) (ix2 r d) = Cert.Spec.unitRow x0 x1 (12 : Fin 16) r d :=
  P0b.unit_chain x0 x1 12 _ _ (P0b.ldCtx_apply x0) (P0b.ldW_apply x1 12 _ 12 rfl) (.inl rfl) rfl r d

/-- Perspective 13's piece, entry by entry, is the unit row of perspective 13. -/
theorem piece0_13 (x0 : Vec Ideal S512x128 .f32) (x1 : Vec Ideal S16x128 .f32) (r : Fin 512) (d : Fin 128) :
    (k0_pay21 (k0_pay19 (View.ld x0 rCtx) (View.ld x1 rW13)) (k0_pay20 (View.ld x0 rCtx) (View.ld x1 rW13)) : FVec Ideal S512x128 .bf16) (ix2 r d) = Cert.Spec.unitRow x0 x1 (13 : Fin 16) r d :=
  P0b.unit_chain x0 x1 13 _ _ (P0b.ldCtx_apply x0) (P0b.ldW_apply x1 13 _ 13 rfl) (.inl rfl) rfl r d

/-- Perspective 14's piece, entry by entry, is the unit row of perspective 14. -/
theorem piece0_14 (x0 : Vec Ideal S512x128 .f32) (x1 : Vec Ideal S16x128 .f32) (r : Fin 512) (d : Fin 128) :
    (k0_pay22 (View.ld x0 rCtx) (View.ld x1 rW14) : FVec Ideal S512x128 .bf16) (ix2 r d) = Cert.Spec.unitRow x0 x1 (14 : Fin 16) r d :=
  P0b.unit_chain x0 x1 14 _ _ (P0b.ldCtx_apply x0) (P0b.ldW_apply x1 14 _ 14 rfl) (.inl rfl) rfl r d

/-- Perspective 15's piece, entry by entry, is the unit row of perspective 15. -/
theorem piece0_15 (x0 : Vec Ideal S512x128 .f32) (x1 : Vec Ideal S16x128 .f32) (r : Fin 512) (d : Fin 128) :
    (k0_pay23 (View.ld x0 rCtx) (View.ld x1 rW15) : FVec Ideal S512x128 .bf16) (ix2 r d) = Cert.Spec.unitRow x0 x1 (15 : Fin 16) r d :=
  P0b.unit_chain x0 x1 15 _ _ (P0b.ldCtx_apply x0) (P0b.ldW_apply x1 15 _ 15 rfl) (.inl rfl) rfl r d

end Cert.KernelIdeal.Hand

end
-- ==== Proof.KI.Value0Block.lean ====
/-
  The first launch's output block read entry by entry: column k of row r lies in the band of perspective k / 128,
  at entry k % 128 of that band, so it holds that perspective's unit row of the block's row r.
-/
import proofs.«140578_j14869176779021_1_alg».proof.Proof.KI.Pieces0a
import proofs.«140578_j14869176779021_1_alg».proof.Proof.KI.Pieces0b

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- A unit row depends on its three indices only through their values. -/
theorem out0_2_unitRow_congr {R : Nat} (x : (⟨2, ![R, 128]⟩ : Shape).Idx → EReal) (w : Cert.Spec.SW.Idx → EReal)
    {p p' : Fin 16} {n n' : Fin R} {d d' : Fin 128} (hp : p.val = p'.val) (hn : n.val = n'.val) (hd : d.val = d'.val) :
    Cert.Spec.unitRow x w p n d = Cert.Spec.unitRow x w p' n' d' := by
  obtain rfl := Fin.ext hp; obtain rfl := Fin.ext hn; obtain rfl := Fin.ext hd; rfl

/-- A band of 128 columns starting at column 128·p that holds perspective p's unit rows agrees, entry by entry, with the
    concatenated row: the entry at (a, b) of the band sits at column 128·p + b of row a, whose quotient by 128 is p and
    whose remainder is b. -/
theorem out0_2_band_agrees (x0 : Vec Ideal S512x128 .f32) (x1 : Vec Ideal S16x128 .f32) (p : Fin 16) (o : ℕ) (ho : o = 128 * p.val)
    (inb : ∀ a, (![0, o] : Fin 2 → ℕ) a + S512x128.size a ≤ S512x2048.size a)
    (w : FVec Ideal S512x128 .bf16) (hw : ∀ r d, w (ix2 r d) = Cert.Spec.unitRow x0 x1 p r d)
    (x : (Rect.unit (s := S512x2048) ![0, o] S512x128.size inb).shape.Idx) :
    w x = Cert.Spec.concatAt x0 x1 ((Rect.unit (s := S512x2048) ![0, o] S512x128.size inb).emb x 0)
      ((Rect.unit (s := S512x2048) ![0, o] S512x128.size inb).emb x 1) := by
  have hb : (x 1).val < 128 := (x 1).isLt
  have hp : p.val < 16 := p.isLt
  have e0 : (((Rect.unit (s := S512x2048) ![0, o] S512x128.size inb).emb x 0 : Fin _) : ℕ) = (x 0).val := by
    show 0 + 1 * (x 0).val = (x 0).val; omega
  have e1 : (((Rect.unit (s := S512x2048) ![0, o] S512x128.size inb).emb x 1 : Fin _) : ℕ) = o + (x 1).val := by
    show o + 1 * (x 1).val = o + (x 1).val; omega
  have hx : w x = w (ix2 (x 0) (x 1)) := congrArg w (eq_ix2 x)
  refine hx.trans ((hw (x 0) (x 1)).trans ?_)
  unfold Cert.Spec.concatAt
  refine out0_2_unitRow_congr _ _ ?_ ?_ ?_
  · show p.val = _ / 128; rw [e1]; omega
  · exact e0.symm
  · show (x 1).val = _ % 128; rw [e1]; omega

/-- The output block at row r, column k. -/
theorem out0_2_apply (x0 : Vec Ideal S512x128 .f32) (x1 : Vec Ideal S16x128 .f32) (r : Fin 512) (k : Fin 2048) :
    (out0_2 (F := Ideal) x0 x1 : S512x2048.Idx → EReal) (ix2 r k) = Cert.Spec.concatAt x0 x1 r k := by
  unfold out0_2
  refine View.canon_apply_of_pieces (Val := Elt Ideal) (S := S512x2048) (e := .bf16)
    (fun y => (Cert.Spec.concatAt x0 x1 (y 0) (y 1) : EReal)) _ ?_ (ix2 r k)
    (cover0_2 _ _ _ _ _ _ _ _ _ _ _ _ _ _ _ _ (ix2 r k))
  intro q hq
  simp only [List.mem_cons, List.not_mem_nil, or_false] at hq
  rcases hq with rfl | rfl | rfl | rfl | rfl | rfl | rfl | rfl | rfl | rfl | rfl | rfl | rfl | rfl | rfl | rfl
  · exact out0_2_band_agrees x0 x1 15 1920 rfl inb_S512x2048_S512x128_0_1920 _ (piece0_15 x0 x1)
  · exact out0_2_band_agrees x0 x1 14 1792 rfl inb_S512x2048_S512x128_0_1792 _ (piece0_14 x0 x1)
  · exact out0_2_band_agrees x0 x1 13 1664 rfl inb_S512x2048_S512x128_0_1664 _ (piece0_13 x0 x1)
  · exact out0_2_band_agrees x0 x1 12 1536 rfl inb_S512x2048_S512x128_0_1536 _ (piece0_12 x0 x1)
  · exact out0_2_band_agrees x0 x1 11 1408 rfl inb_S512x2048_S512x128_0_1408 _ (piece0_11 x0 x1)
  · exact out0_2_band_agrees x0 x1 10 1280 rfl inb_S512x2048_S512x128_0_1280 _ (piece0_10 x0 x1)
  · exact out0_2_band_agrees x0 x1 9 1152 rfl inb_S512x2048_S512x128_0_1152 _ (piece0_9 x0 x1)
  · exact out0_2_band_agrees x0 x1 8 1024 rfl inb_S512x2048_S512x128_0_1024 _ (piece0_8 x0 x1)
  · exact out0_2_band_agrees x0 x1 7 896 rfl inb_S512x2048_S512x128_0_896 _ (piece0_7 x0 x1)
  · exact out0_2_band_agrees x0 x1 6 768 rfl inb_S512x2048_S512x128_0_768 _ (piece0_6 x0 x1)
  · exact out0_2_band_agrees x0 x1 5 640 rfl inb_S512x2048_S512x128_0_640 _ (piece0_5 x0 x1)
  · exact out0_2_band_agrees x0 x1 4 512 rfl inb_S512x2048_S512x128_0_512 _ (piece0_4 x0 x1)
  · exact out0_2_band_agrees x0 x1 3 384 rfl inb_S512x2048_S512x128_0_384 _ (piece0_3 x0 x1)
  · exact out0_2_band_agrees x0 x1 2 256 rfl inb_S512x2048_S512x128_0_256 _ (piece0_2 x0 x1)
  · exact out0_2_band_agrees x0 x1 1 128 rfl inb_S512x2048_S512x128_0_128 _ (piece0_1 x0 x1)
  · exact out0_2_band_agrees x0 x1 0 0 rfl inb_S512x2048_S512x128_0_0 _ (piece0_0 x0 x1)

end Cert.KernelIdeal.Hand

end
-- ==== Proof.KI.Value0.lean ====
/-
  The first launch's output array after the launch: the eight grid points write eight row blocks that tile the array,
  block t holding rows 512·t … 512·t+511; row n of the array therefore holds the sixteen unit rows of context row n side
  by side.
-/
import proofs.«140578_j14869176779021_1_alg».proof.Proof.KI.Value0Block

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The unit rows of a block of 512 context rows are the unit rows of the array's rows 512·t … 512·t+511: row r of the
    block is row 512·t + r of the array and the weights are the same, so every entry, every norm and every quotient agree. -/
theorem concatAt_rows (X : Cert.Spec.SCtx.Idx → EReal) (W : Cert.Spec.SW.Idx → EReal)
    (x0 : (⟨2, ![512, 128]⟩ : Shape).Idx → EReal) (w0 : Cert.Spec.SW.Idx → EReal) (t : Nat) (ht : t < 8)
    (hx : ∀ (r : Fin 512) (d : Fin 128), x0 (ix2 r d) = X (ix2 (⟨512 * t + r.val, by omega⟩ : Fin 4096) d))
    (hw : ∀ (p : Fin 16) (d : Fin 128), w0 (ix2 p d) = W (ix2 p d))
    (r : Fin 512) (k : Fin 2048) :
    Cert.Spec.concatAt x0 w0 r k = Cert.Spec.concatAt X W (⟨512 * t + r.val, by omega⟩ : Fin 4096) k := by
  unfold Cert.Spec.concatAt Cert.Spec.unitRow Cert.Spec.flooredNorm Cert.Spec.scaled
  simp only [hx, hw]

/-- The concatenation read at equal coordinates. -/
theorem concatAt_congr {R : Nat} (x : (⟨2, ![R, 128]⟩ : Shape).Idx → EReal) (w : Cert.Spec.SW.Idx → EReal)
    {n n' : Fin R} {k k' : Fin 2048} (hn : n = n') (hk : k = k') :
    Cert.Spec.concatAt x w n k = Cert.Spec.concatAt x w n' k' := by
  subst hn; subst hk; rfl

/-- The index maps over the grid: point t takes block t of the context rows, the whole weights, and block t of the
    output rows. -/
theorem idx_facts0 : ∀ t : Fin cfg0.N, t.val < 8
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Row r of the context block at point t is row 512·t + r of the context. -/
theorem ctx_block_apply (c : Dev nD) (t : Fin cfg0.N) (r : Fin 512) (d : Fin 128) (n : Fin 4096) (hn : n.val = 512 * t.val + r.val) :
    (iblk0 (F := Ideal) V c 0 t : S512x128.Idx → EReal) (ix2 r d) = (V c main_arg0 : S4096x128.Idx → EReal) (ix2 n d) := by
  obtain ⟨-, e0, e1, -⟩ := idx_facts0 t
  show V c main_arg0 (((cfg0.win 0).blk t).view.emb (ix2 r d)) = V c main_arg0 (ix2 n d)
  refine congrArg (V c main_arg0) ?_
  funext a; apply Fin.ext
  match a with
  | ⟨0, _⟩ => show win0_0.index t (0 : Fin 2) * 512 + 1 * r.val = n.val; omega
  | ⟨1, _⟩ => show win0_0.index t (1 : Fin 2) * 128 + 1 * d.val = d.val; omega

/-- The weights' block at every point is the whole weight table. -/
theorem w_block_apply (c : Dev nD) (t : Fin cfg0.N) (p : Fin 16) (d : Fin 128) :
    (iblk0 (F := Ideal) V c 1 t : S16x128.Idx → EReal) (ix2 p d) = (V c main_arg1 : S16x128.Idx → EReal) (ix2 p d) := by
  obtain ⟨-, -, -, e0, e1, -⟩ := idx_facts0 t
  show V c main_arg1 (((cfg0.win 1).blk t).view.emb (ix2 p d)) = V c main_arg1 (ix2 p d)
  refine congrArg (V c main_arg1) ?_
  funext a; apply Fin.ext
  match a with
  | ⟨0, _⟩ => show win0_1.index t (0 : Fin 2) * 16 + 1 * p.val = p.val; omega
  | ⟨1, _⟩ => show win0_1.index t (1 : Fin 2) * 128 + 1 * d.val = d.val; omega

/-- What point t leaves in its output block, entry by entry: the concatenation's rows 512·t … 512·t+511. -/
theorem block_point (c : Dev nD) (t : Fin cfg0.N) (r : Fin 512) (k : Fin 2048) :
    (out0_2 (F := Ideal) (iblk0 V c 0 t) (iblk0 V c 1 t) : S512x2048.Idx → EReal) (ix2 r k)
      = Cert.Spec.concat (V c main_arg0) (V c main_arg1) (((cfg0.win 2).blk t).view.emb (ix2 r k)) := by
  obtain ⟨ht, -, -, -, -, e0, e1⟩ := idx_facts0 t
  refine (out0_2_apply (iblk0 V c 0 t) (iblk0 V c 1 t) r k).trans ?_
  refine (concatAt_rows (V c main_arg0) (V c main_arg1) (iblk0 V c 0 t) (iblk0 V c 1 t) t.val ht
    (fun r d => ctx_block_apply V c t r d _ rfl) (fun p d => w_block_apply V c t p d) r k).trans ?_
  show Cert.Spec.concatAt (V c main_arg0) (V c main_arg1) _ _
    = Cert.Spec.concatAt (V c main_arg0) (V c main_arg1) ((((cfg0.win 2).blk t).view.emb (ix2 r k)) 0) ((((cfg0.win 2).blk t).view.emb (ix2 r k)) 1)
  refine concatAt_congr _ _ (Fin.ext ?_) (Fin.ext ?_)
  · show 512 * t.val + r.val = win0_2.index t (0 : Fin 2) * 512 + 1 * r.val; omega
  · show k.val = win0_2.index t (1 : Fin 2) * 2048 + 1 * k.val; omega

/-- What point t writes back is block t of the concatenation. -/
theorem flushed0_eq (c : Dev nD) (t : Fin cfg0.N) :
    (dat0 (F := Ideal) V c).flushed 2 t
      = ((cfg0.win 2).blk t).view.read (Elt Ideal) (Cert.Spec.concat (V c main_arg0) (V c main_arg1)) := by
  show (cfg0.win 2).cut (grid0.coords t) ((dat0 V c).after 2 t) = _
  rw [after0_2]
  funext j
  obtain ⟨r, k, rfl⟩ : ∃ (r : Fin 512) (k : Fin 2048), j = ix2 r k := ⟨j 0, j 1, eq_ix2 j⟩
  exact block_point V c t r k

/-- An index of the array is in point t's block iff each coordinate is in the block's range on its axis. -/
theorem mem_blk0 (t : Fin cfg0.N) (i : S4096x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- Every block index on the row axis is some point's. -/
theorem idx_onto0 : ∀ q : Fin 8, ∃ t : Fin cfg0.N, win0_2.index t = ![q.val, 0] :=
  (by decide +kernel : ∀ q : Fin 8, ∃ t : Fin grid0.N, win0_2.index t = ![q.val, 0])

/-- The eight blocks cover the array: row n lies in the block of point n / 512. -/
theorem covered0 (i : S4096x2048.Idx) : ∃ t : Fin cfg0.N, (cfg0.win 2).flush t = true ∧ i ∈ ((cfg0.win 2).blk t).view.set := by
  have hi0 : (i 0).val < 4096 := (i 0).isLt
  have hi1 : (i 1).val < 2048 := (i 1).isLt
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- After the first launch its output array is the concatenation of the unit rows. -/
theorem final0 (c : Dev nD) :
    ((dat0 (F := Ideal) V c).arrAt 2 cfg0.N : S4096x2048.Idx → EReal) = Cert.Spec.concat (V c main_arg0) (V c main_arg1) :=
  (dat0 (F := Ideal) V c).arrAt_eq_of_cover 2 (Cert.Spec.concat (V c main_arg0) (V c main_arg1))
    (fun t _ => flushed0_eq V c t) covered0

end Cert.KernelIdeal.Hand

end
-- ==== Proof.KI.Value1.lean ====
/-
  The second launch read entry by entry. Its output block at (r, c) is the dot product over the 2048 columns of row r of
  the first input block and row c of the second, times one sixteenth, masked; the sixteen grid points write sixteen
  blocks that tile the output, block (i, j) pairing row block i with row block j of the one input array.
-/
import proofs.«140578_j14869176779021_1_alg».proof.Proof.KI.Reg1
import proofs.«140578_j14869176779021_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The matrix product's index functions, axis by axis -/

theorem lhs_mm1_0 (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs_mm1_1 (i : S1024x1024.Idx) (q : dot_S1024x2048_S2048x1024_S1024x1024_1_0_0_1_n_n.contr.Idx) :
    (dot_S1024x2048_S2048x1024_S1024x1024_1_0_0_1_n_n.lhsIdx i q 1).val = (q ⟨0, by decide⟩).val :=
  dot_S1024x2048_S2048x1024_S1024x1024_1_0_0_1_n_n.lhsIdx_val_of_single rfl i q
theorem rhs_mm1_0 (i : S1024x1024.Idx) (q : dot_S1024x2048_S2048x1024_S1024x1024_1_0_0_1_n_n.contr.Idx) :
    (dot_S1024x2048_S2048x1024_S1024x1024_1_0_0_1_n_n.rhsIdx i q 0).val = (q ⟨0, by decide⟩).val :=
  dot_S1024x2048_S2048x1024_S1024x1024_1_0_0_1_n_n.rhsIdx_val_of_single rfl i q
theorem rhs_mm1_1 (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The product of a block with a transposed block into a zero accumulator, at row r and column c: the dot product of
    row r of the first with row c of the second. -/
theorem matmul1_apply (a : FVec Ideal S1024x2048 .bf16) (b : FVec Ideal S2048x1024 .bf16) (r c : Fin 1024) :
    (matmul dot_S1024x2048_S2048x1024_S1024x1024_1_0_0_1_n_n none a b (constant S1024x1024 .f32 0x00000000#32) : FVec Ideal S1024x1024 .f32) (ix2 r c)
      = ∑ k : Fin 2048, a (ix2 r k) * b (ix2 k c) := by
  simp only [matmul]
  rw [Ideal.matmul_constant_zero_apply, ← Equiv.sum_comp (ValueIdx.contrEquiv1 dot_S1024x2048_S2048x1024_S1024x1024_1_0_0_1_n_n 2048 rfl rfl).symm]
  refine Finset.sum_congr rfl fun k _ => ?_
  have hk := ValueIdx.contrEquiv1_symm_val dot_S1024x2048_S2048x1024_S1024x1024_1_0_0_1_n_n 2048 rfl rfl k
  have el : dot_S1024x2048_S2048x1024_S1024x1024_1_0_0_1_n_n.lhsIdx (ix2 r c) ((ValueIdx.contrEquiv1 dot_S1024x2048_S2048x1024_S1024x1024_1_0_0_1_n_n 2048 rfl rfl).symm k) = ix2 r k := funext fun a => Fin.ext (by
    match a with
    | ⟨0, _⟩ => exact lhs_mm1_0 _ _
    | ⟨1, _⟩ => exact (lhs_mm1_1 _ _).trans hk)
  have er : dot_S1024x2048_S2048x1024_S1024x1024_1_0_0_1_n_n.rhsIdx (ix2 r c) ((ValueIdx.contrEquiv1 dot_S1024x2048_S2048x1024_S1024x1024_1_0_0_1_n_n 2048 rfl rfl).symm k) = ix2 k c := funext fun a => Fin.ext (by
    match a with
    | ⟨0, _⟩ => exact (rhs_mm1_0 _ _).trans hk
    | ⟨1, _⟩ => exact rhs_mm1_1 _ _)
  rw [el, er]

theorem hz1 : (![0, 0] : Fin 2 → Nat) = fun _ => 0 := funext fun a => by fin_cases a <;> rfl

/-- The comparison bit, widened and read as a number, is 1 above the threshold and 0 elsewhere. -/
theorem keep_word (a : EReal) :
    (((((Ideal.cmp .ogt a Cert.Spec.threshold).setWidth 32).toInt : ℝ)) : EReal) = Cert.Spec.keep a := by
  unfold Cert.Spec.keep Ideal.cmp
  by_cases h : Cert.Spec.threshold < a
  · simp [h]
  · simp [h]

/-- The body's output block is its one stored value. -/
theorem out1_2_eq_pay (x0 x1 : Vec Ideal S1024x2048 .bf16) : out1_2 (F := Ideal) x0 x1 = k1_pay1 x0 x1 := by
  unfold out1_2
  rw [View.canon_unit_zero hz1]
  rw [show View.ld x0 rIn1 = x0 from View.ld_unit_zero (S := S1024x2048) hz1 _ x0,
    show View.ld x1 rIn1 = x1 from View.ld_unit_zero (S := S1024x2048) hz1 _ x1]

/-- The scaled product at row r, column c, before the mask. -/
theorem scaled1_apply (x0 x1 : Vec Ideal S1024x2048 .bf16) (r c : Fin 1024) :
    (mulf (matmul (φ₁ := .bf16) (φ₂ := .bf16) dot_S1024x2048_S2048x1024_S1024x1024_1_0_0_1_n_n none x0
        (transpose (α := Ideal .bf16) S2048x1024 [1, 0] x1 transposes_S1024x2048_p1_0_S2048x1024) (constant S1024x1024 .f32 0x00000000#32))
      (broadcast S1024x1024 (Scalar.ofBits .f32 0x3D800000#32)) : FVec Ideal S1024x1024 .f32) (ix2 r c)
      = (∑ k : Fin 2048, x0 (ix2 r k) * x1 (ix2 c k)) * Cert.Spec.sixteenth := by
  refine (mulf_apply _ _ _).trans ?_
  rw [matmul1_apply, broadcast_apply]
  refine congrArg (· * Cert.Spec.sixteenth) (Finset.sum_congr rfl fun k _ => ?_)
  exact congrArg (x0 (ix2 r k) * ·) (transpose_ix2_apply x1 transposes_S1024x2048_p1_0_S2048x1024 k c)

/-- The output block at row r, column c. -/
theorem out1_2_apply (x0 x1 : Vec Ideal S1024x2048 .bf16) (r c : Fin 1024) :
    (out1_2 (F := Ideal) x0 x1 : S1024x1024.Idx → EReal) (ix2 r c)
      = Cert.Spec.masked ((∑ k : Fin 2048, x0 (ix2 r k) * x1 (ix2 c k)) * Cert.Spec.sixteenth) := by
  rw [out1_2_eq_pay]
  unfold k1_pay1
  simp only [shapeCast_self]
  refine (mulf_apply _ _ _).trans ?_
  rw [sitofp_apply, extui_apply, cmpf_apply, broadcast_apply, scaled1_apply]
  unfold Cert.Spec.masked
  exact congrArg _ (keep_word _)

variable (V : (c : Dev nD) → (b : Ref sig .tc) → Buf (Elt Ideal) ((c : Thread nD τ).loc b))

/-! ## From blocks to the array -/

/-- The index maps over the grid: the point at grid coordinates (i, j) stages row block i and row block j of the one
    input array and writes block (i, j) of the output; the output's block indices run over 0‥3. -/
theorem idx_facts1 : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 3 ∧ win1_2.index t (1 : Fin 2) ≤ 3 :=
  (by decide +kernel : ∀ t : Fin grid1.N, _)

/-- Every one of the sixteen output blocks is some point's. -/
theorem idx_onto1 : ∀ (q0 q1 : Fin 4), ∃ t : Fin cfg1.N, win1_2.index t = ![q0.val, q1.val] :=
  (by decide +kernel : ∀ (q0 q1 : Fin 4), ∃ t : Fin grid1.N, win1_2.index t = ![q0.val, q1.val])

/-- The first input block at a point is the rows of the array that its output block's rows name. -/
theorem iblk1_0_apply (c : Dev nD) (t : Fin cfg1.N) (x : S1024x2048.Idx) (i : S4096x2048.Idx)
    (h0 : (i 0).val = win1_2.index t (0 : Fin 2) * 1024 + (x 0).val) (h1 : (i 1).val = (x 1).val) :
    (iblk1 V c 0 t : Vec Ideal S1024x2048 .bf16) x = (V c main_v0 : S4096x2048.Idx → EReal) i := by
  obtain ⟨e0, e1, e2, e3, -, -⟩ := idx_facts1 t
  unfold iblk1
  rw [View.read_apply]
  show V c main_v0 _ = V c main_v0 _
  congr 1
  funext a
  apply Fin.ext
  match a with
  | ⟨0, _⟩ => show win1_0.index t (0 : Fin 2) * 1024 + 1 * (x 0).val = (i 0).val; omega
  | ⟨1, _⟩ => show win1_0.index t (1 : Fin 2) * 2048 + 1 * (x 1).val = (i 1).val; omega

/-- The second input block at a point is the rows of the same array that its output block's columns name. -/
theorem iblk1_1_apply (c : Dev nD) (t : Fin cfg1.N) (x : S1024x2048.Idx) (i : S4096x2048.Idx)
    (h0 : (i 0).val = win1_2.index t (1 : Fin 2) * 1024 + (x 0).val) (h1 : (i 1).val = (x 1).val) :
    (iblk1 V c 1 t : Vec Ideal S1024x2048 .bf16) x = (V c main_v0 : S4096x2048.Idx → EReal) i := by
  obtain ⟨e0, e1, e2, e3, -, -⟩ := idx_facts1 t
  unfold iblk1
  rw [View.read_apply]
  show V c main_v0 _ = V c main_v0 _
  congr 1
  funext a
  apply Fin.ext
  match a with
  | ⟨0, _⟩ => show win1_1.index t (0 : Fin 2) * 1024 + 1 * (x 0).val = (i 0).val; omega
  | ⟨1, _⟩ => show win1_1.index t (1 : Fin 2) * 2048 + 1 * (x 1).val = (i 1).val; omega

/-- The output block made from row blocks bi and bj of one array X is block (bi, bj) of X's similarity matrix. -/
theorem out1_2_blocks (X : S4096x2048.Idx → EReal) (x0 x1 : Vec Ideal S1024x2048 .bf16) (bi bj : Nat)
    (h0 : ∀ (r : Fin 1024) (k : Fin 2048) (i : S4096x2048.Idx), (i 0).val = bi * 1024 + r.val → (i 1).val = k.val → x0 (ix2 r k) = X i)
    (h1 : ∀ (r : Fin 1024) (k : Fin 2048) (i : S4096x2048.Idx), (i 0).val = bj * 1024 + r.val → (i 1).val = k.val → x1 (ix2 r k) = X i)
    (y : S1024x1024.Idx) (i : S4096x4096.Idx) (hi0 : (i 0).val = bi * 1024 + (y 0).val) (hi1 : (i 1).val = bj * 1024 + (y 1).val) :
    (out1_2 (F := Ideal) x0 x1 : S1024x1024.Idx → EReal) y = Cert.Spec.similarity X i := by
  obtain ⟨p, q, rfl⟩ : ∃ (p q : Fin 1024), y = ix2 p q := ⟨y 0, y 1, eq_ix2 y⟩
  rw [out1_2_apply]
  unfold Cert.Spec.similarity
  refine congrArg (fun s => Cert.Spec.masked (s * Cert.Spec.sixteenth)) (Finset.sum_congr rfl fun k _ => ?_)
  rw [h0 p k (ix2 (i 0) k) hi0 rfl, h1 q k (ix2 (i 1) k) hi1 rfl]

/-- What a point writes back is its block of the similarity matrix of the array the launch read. -/
theorem flushed1_eq (c : Dev nD) (t : Fin cfg1.N) :
    (dat1 (F := Ideal) V c).flushed 2 t = ((cfg1.win 2).blk t).view.read (Elt Ideal) (Cert.Spec.similarity (V c main_v0)) := by
  show (cfg1.win 2).cut (grid1.coords t) ((dat1 V c).after 2 t) = _
  rw [after1_2]
  funext j
  rw [View.read_apply]
  refine out1_2_blocks (V c main_v0) (iblk1 V c 0 t) (iblk1 V c 1 t) (win1_2.index t (0 : Fin 2)) (win1_2.index t (1 : Fin 2))
    (fun r k i h0 h1 => iblk1_0_apply V c t (ix2 r k) i h0 h1) (fun r k i h0 h1 => iblk1_1_apply V c t (ix2 r k) i h0 h1) _ _ ?_ ?_
  · show win1_2.index t (0 : Fin 2) * 1024 + 1 * (j 0).val = win1_2.index t (0 : Fin 2) * 1024 + (j 0).val; omega
  · show win1_2.index t (1 : Fin 2) * 1024 + 1 * (j 1).val = win1_2.index t (1 : Fin 2) * 1024 + (j 1).val; omega

/-- An index of the output array is in a point's block iff each coordinate is in the block's range on its axis. -/
theorem mem_blk1 (t : Fin cfg1.N) (i : S4096x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

/-- The sixteen blocks tile the output: entry (n, m) lies in block (n / 1024, m / 1024). -/
theorem cover1 (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  obtain ⟨t, ht⟩ := idx_onto1 ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- After the second launch its output array is the similarity matrix of the array it read. -/
theorem final1 (c : Dev nD) :
    ((dat1 (F := Ideal) V c).arrAt 2 cfg1.N : S4096x4096.Idx → EReal) = Cert.Spec.similarity (V c main_v0) :=
  (dat1 V c).arrAt_eq_of_cover 2 (Cert.Spec.similarity (V c main_v0)) (fun t _ => flushed1_eq V c t) cover1

end Cert.KernelIdeal.Hand

end
-- ==== Proof.KI.Result.lean ====
/-
  The idealized kernel's result as a function of its arguments: the second launch's output is the similarity matrix of
  the array it read, which is the first launch's output, the concatenation of the unit rows of the two arguments.
-/
import proofs.«140578_j14869176779021_1_alg».proof.Proof.KI.Run
import proofs.«140578_j14869176779021_1_alg».proof.Proof.KI.Value0
import proofs.«140578_j14869176779021_1_alg».proof.Proof.KI.Value1

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ)

/-- What the run leaves in the result array is `Cert.Spec.result` of the two argument arrays. -/
theorem result_eq (c : Dev nD) :
    ((dat1 (F := Ideal) (E1 m) c).arrAt 2 cfg1.N : S4096x4096.Idx → EReal)
      = Cert.Spec.result (m ((c.tc : Thread nD τ).loc main_arg0)) (m ((c.tc : Thread nD τ).loc main_arg1)) := by
  rw [final1 (E1 m) c, E1_v0 m c, final0 (E0 m) c]
  rfl

end Cert.KernelIdeal.Hand

end
-- ==== Proof.RefValue.lean ====
/-
  The reference's result read entry by entry: its composed term is the mean over the sixteen perspectives of the dot
  products of the unit rows, masked — the function `Cert.Spec.meanCos` of the two arguments.
-/
import proofs.«140578_j14869176779021_1_alg».proof.Proof.Gen.ReferenceIdeal.Run
import proofs.«140578_j14869176779021_1_alg».proof.Proof.Gen.ReferenceIdeal.Read
import proofs.«140578_j14869176779021_1_alg».proof.Proof.Spec

set_option maxRecDepth 16384

noncomputable section

open scoped BigOperators

namespace Cert.RefValue

open Cert.ReferenceIdeal Cert.ReferenceIdeal.Gen Cert.ReferenceIdeal.Value Cert.ReferenceIdeal.Read
open Idealize.ShloMosaic Idealize.ShloMosaic.TcCoe Idealize.ShloMosaic.ValueIdx Idealize.SL.Sem

section Stages

variable (x : (⟨S4096x128, .f32⟩ : BufTy).Contents (Elt Ideal)) (w : (⟨S16x128, .f32⟩ : BufTy).Contents (Elt Ideal))

/-! The composed index maps of the layout operations, by coordinates. -/

theorem idx_x (p : Fin 16) (n : Fin 4096) (d : Fin 128) :
    idx_main_v0 (idx_main_v2 (ix3 p n d)) = ix2 n d :=
  funext fun a => Fin.ext (by match a with | ⟨0, _⟩ => rfl | ⟨1, _⟩ => rfl)

theorem idx_w (p : Fin 16) (n : Fin 4096) (d : Fin 128) :
    idx_main_v1 (idx_main_v3 (ix3 p n d)) = ix2 p d :=
  funext fun a => Fin.ext (by match a with | ⟨0, _⟩ => rfl | ⟨1, _⟩ => rfl)

theorem idx_sq (p : Fin 16) (n : Fin 4096) (d k : Fin 128) :
    idx_main_call0_v1 (idx_main_call0_v2 (idx_main_v8 (ix3 p n d))) k = ix3 p n k :=
  funext fun a => Fin.ext (by match a with | ⟨0, _⟩ => rfl | ⟨1, _⟩ => rfl | ⟨2, _⟩ => rfl)

theorem idx_l (n q : Fin 4096) (p : Fin 16) (k : Fin 128) :
    lidx_main_v10 (idx_main_v11 (ix2 n q) p) k = ix3 p n k :=
  funext fun a => Fin.ext (by match a with | ⟨0, _⟩ => rfl | ⟨1, _⟩ => rfl | ⟨2, _⟩ => rfl)

theorem idx_r (n q : Fin 4096) (p : Fin 16) (k : Fin 128) :
    ridx_main_v10 (idx_main_v11 (ix2 n q) p) k = ix3 p q k :=
  funext fun a => Fin.ext (by match a with | ⟨0, _⟩ => rfl | ⟨1, _⟩ => rfl | ⟨2, _⟩ => rfl)

/-! The stages, each read at an index given by its coordinates. -/

/-- The product of the two broadcast arguments is the scaled entry. -/
theorem scaled_at (p : Fin 16) (n : Fin 4096) (d : Fin 128) :
    val_main_v4 (F := Ideal) x w (ix3 p n d) = Cert.Spec.scaled x w p n d := by
  rw [val_main_v4_apply, val_main_v2_apply, val_main_v0_apply, val_main_v3_apply, val_main_v1_apply, idx_x, idx_w]
  rfl

/-- The broadcast maximum of the root of the sum of squares and the floor is the floored norm. -/
theorem norm_at (p : Fin 16) (n : Fin 4096) (d : Fin 128) :
    val_main_v8 (F := Ideal) x w (ix3 p n d) = Cert.Spec.flooredNorm x w p n := by
  rw [val_main_v8_apply, val_main_v7_apply, val_main_v5_apply, val_main_call0_v2_apply, val_main_call0_v1_apply,
    val_main_v6_apply, val_main_cst_apply, val_main_call0_cst_apply]
  simp only [val_main_call0_v0_apply, idx_sq, scaled_at, Ideal.mulf_def, Ideal.maximumf_def, Ideal.hostUnary_sqrt_def,
    Ideal.ofBits_def, Ideal.ofBits_zero_f32, zero_add]
  rfl

/-- The quotient is the unit row. -/
theorem unit_at (p : Fin 16) (n : Fin 4096) (d : Fin 128) :
    val_main_v9 (F := Ideal) x w (ix3 p n d) = Cert.Spec.unitRow x w p n d := by
  rw [val_main_v9_apply, scaled_at, norm_at]
  rfl

/-- The contraction over the entries is the dot product of two unit rows of one perspective. -/
theorem dot_at (p : Fin 16) (n q : Fin 4096) :
    val_main_v10 (F := Ideal) x w (idx_main_v11 (ix2 n q) p)
      = ∑ d : Fin 128, Cert.Spec.unitRow x w p n d * Cert.Spec.unitRow x w p q d := by
  rw [val_main_v10_apply]
  refine Finset.sum_congr rfl fun k _ => ?_
  rw [idx_l, idx_r, unit_at, unit_at]

/-- The sum of the dot products over the perspectives, divided by sixteen. -/
theorem mean_at (n q : Fin 4096) :
    val_main_v13 (F := Ideal) x w (ix2 n q)
      = Ideal.div (∑ p : Fin 16, ∑ d : Fin 128, Cert.Spec.unitRow x w p n d * Cert.Spec.unitRow x w p q d)
          Cert.Spec.sixteen := by
  rw [val_main_v13_apply, val_main_v11_apply, val_main_v12_apply, val_main_cst_1_apply, val_main_cst_0_apply]
  simp only [dot_at, Ideal.hostDivf_def, Ideal.ofBits_def, Ideal.ofBits_zero_f32, zero_add]
  rfl

/-- The comparison with the threshold, converted to a number, is one where the value exceeds it and zero elsewhere. -/
theorem keep_eq (a : Ideal .f32) :
    FloatOps.uitofp (F := Ideal) .f32 (FloatOps.cmpf .ogt a (FloatOps.ofBits (F := Ideal) .f32 0x3DCCCCCD#32))
      = Cert.Spec.keep a := by
  show (((Ideal.cmp .ogt a Cert.Spec.threshold).toNat : ℝ) : EReal) = _
  unfold Cert.Spec.keep Ideal.cmp
  by_cases h : Cert.Spec.threshold < a
  · simp [h]
  · simp [h]

end Stages

/-- The reference's result is `meanCos` of its two arguments. -/
theorem ref_eq (m : (ℓ : Loc nD τ sig) → Buf (Elt Ideal) ℓ) (c : Dev nD) :
    (res_main_v17 (F := Ideal) m c : S4096x4096.Idx → EReal)
      = Cert.Spec.meanCos (m ((c.tc : Thread nD τ).loc main_arg0)) (m ((c.tc : Thread nD τ).loc main_arg1)) := by
  rw [val_main_v17_eq]
  funext i
  obtain ⟨n, q, rfl⟩ : ∃ n q, i = ix2 n q := ⟨i 0, i 1, eq_ix2 i⟩
  rw [val_main_v17_apply, val_main_v16_apply, val_main_v15_apply, val_main_v14_apply, val_main_cst_2_apply, keep_eq,
    mean_at]
  rfl

end Cert.RefValue

end
-- ==== Proof.lean ====
/-
  The certificate of the two-launch similarity kernel against its jnp reference.
  Both programs compute, for context x : [4096,128] and weights w : [16,128], the matrix whose (n, m) entry is the mean
  over the sixteen perspectives p of the cosine of the p-scaled rows n and m (each scaled row divided by the larger of its
  norm and a floor), kept where it exceeds a threshold and zero elsewhere (`Cert.Spec`). The kernel lays the sixteen unit
  rows of each row side by side (first launch) and takes ONE dot product over the 2048 columns, times 1/16 (second launch);
  the reference sums sixteen dot products and divides by 16: equal on the extended reals, with no appeal to finiteness
  (`Cert.Spec.result_eq_meanCos`). The frames: each kernel program runs launch after launch, the second launch reading the
  first's output through two windows on one array; the reference is a straight line of host operations.
-/
import proofs.«140578_j14869176779021_1_alg».proof.Defs
import proofs.«140578_j14869176779021_1_alg».proof.Proof.Gen.Kernel
import proofs.«140578_j14869176779021_1_alg».proof.Proof.Gen.KernelIdeal
import proofs.«140578_j14869176779021_1_alg».proof.Proof.Gen.ReferenceIdeal
import proofs.«140578_j14869176779021_1_alg».proof.Proof.Gen.Pre_finite_inputs
import proofs.«140578_j14869176779021_1_alg».proof.Proof.Gen.ReferenceIdeal.Run
import proofs.«140578_j14869176779021_1_alg».proof.Proof.K.Run
import proofs.«140578_j14869176779021_1_alg».proof.Proof.KI.Result
import proofs.«140578_j14869176779021_1_alg».proof.Proof.RefValue
import Idealize.ShloMosaic.Adequacy
import Idealize.ShloMosaic.Init

noncomputable section

namespace Cert.Proof

open Idealize.ShloMosaic Idealize.ShloMosaic.TcCoe Idealize.SL.Sem

/-- The three programs' stated side conditions. -/
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_inputs.Facts := Cert.Pre_finite_inputs.Gen.facts

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result array at `Cert.Spec.result` of the arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.result_eq m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.RefValue.ref_eq m' c, (hagree c).1, (hagree c).2]
    exact (Cert.Spec.result_eq_meanCos _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
